-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32000 : Shape := ⟨2, ![2, 32000]⟩
abbrev S16002x2048 : Shape := ⟨2, ![16002, 2048]⟩
abbrev S2048 : Shape := ⟨1, ![2048]⟩
abbrev S_ : Shape := ⟨0, ![]⟩

class Facts : Prop where
  bcast_S_S2x32000 : S_.BroadcastsInDim S2x32000 (![] : Fin 0 → Fin S2x32000.rank)
  reducesTo_S2x32000_S_d0_1 : S2x32000.ReducesTo [0, 1] S_
  h_S_ : 0 < S_.numel
  bcast_S_S16002x2048 : S_.BroadcastsInDim S16002x2048 (![] : Fin 0 → Fin S16002x2048.rank)
  reducesTo_S16002x2048_S_d0_1 : S16002x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v15 : IVec S_ 1) : IVec S_ 1 :=
  let main_v16 : IVec S_ 1 := andi main_v13 main_v15
  main_v16

def fn {F : FTy → Type} [FloatOps F] (main_arg0 : FVec F S2x32000 .f32) (main_arg1 : FVec F S16002x2048 .f32) (main_arg2 : FVec F S2048 .f32) : IVec S_ 1 :=
  let main_v0 : FVec F S2x32000 .f32 := Host.absf main_arg0
  let main_cst : FVec F S_ .f32 := constant S_ .f32 0x7F800000#32
  let main_v1 : FVec F S2x32000 .f32 := broadcastInDim S2x32000 ![] bcast_S_S2x32000 main_cst
  let main_v2 : IVec S2x32000 1 := cmpf .olt main_v0 main_v1
  let main_c : IVec S_ 1 := constantI S_ 1 1#1
  let main_v3 : IVec S_ 1 := (fun x v => Host.reduce IntOp.andi x v reducesTo_S2x32000_S_d0_1 h_S_) main_v2 main_c
  let main_v4 : FVec F S16002x2048 .f32 := Host.absf main_arg1
  let main_cst_0 : FVec F S_ .f32 := constant S_ .f32 0x7F800000#32
  let main_v5 : FVec F S16002x2048 .f32 := broadcastInDim S16002x2048 ![] bcast_S_S16002x2048 main_cst_0
  let main_v6 : IVec S16002x2048 1 := cmpf .olt main_v4 main_v5
  let main_c_1 : IVec S_ 1 := constantI S_ 1 1#1
  let main_v7 : IVec S_ 1 := (fun x v => Host.reduce IntOp.andi x v reducesTo_S16002x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_cst_4 : FVec F S_ .f32 := constant S_ .f32 0x00000000#32
  let main_v14 : FVec F S_ .f32 := (fun x v => Host.reduceAdd x v reducesTo_S2048_S_d0 h_S_) main_arg2 main_cst_4
  let main_cst_5 : FVec F S_ .f32 := constant S_ .f32 0x00000000#32
  let main_v15 : IVec S_ 1 := cmpf .une main_v14 main_cst_5
  fn_part1 (F := F) main_v13 main_v15
-- ==== Kernel.lean ====
abbrev S2x32000 : Shape := ⟨2, ![2, 32000]⟩
abbrev S16002x2048 : Shape := ⟨2, ![16002, 2048]⟩
abbrev S2048 : Shape := ⟨1, ![2048]⟩
abbrev S_ : Shape := ⟨0, ![]⟩
abbrev S2x34047 : Shape := ⟨2, ![2, 34047]⟩
abbrev S2000 : Shape := ⟨1, ![2000]⟩
abbrev S2000x1 : Shape := ⟨2, ![2000, 1]⟩
abbrev S1x2048 : Shape := ⟨2, ![1, 2048]⟩
abbrev S2000x2048 : Shape := ⟨2, ![2000, 2048]⟩
abbrev S2000x2048x1 : Shape := ⟨3, ![2000, 2048, 1]⟩
abbrev S2x2000x2048 : Shape := ⟨3, ![2, 2000, 2048]⟩
abbrev S2x16002x2000 : Shape := ⟨3, ![2, 16002, 2000]⟩
abbrev S640x2048 : Shape := ⟨2, ![640, 2048]⟩
abbrev S1x2000x2048 : Shape := ⟨3, ![1, 2000, 2048]⟩
abbrev S1x640x2000 : Shape := ⟨3, ![1, 640, 2000]⟩
abbrev S640x2000 : Shape := ⟨2, ![640, 2000]⟩
abbrev S2x8001x2000 : Shape := ⟨3, ![2, 8001, 2000]⟩

abbrev nBuf : Space → Nat
  | .hbm => 41
  | .vmem => 6
  | .smem => 0
  | _ => 0

abbrev bufTy : (tb : Table) → Fin (tcTables nBuf tb) → BufTy
  | .hbm, ⟨0, _⟩ => ⟨S2x32000, .f32⟩
  | .hbm, ⟨1, _⟩ => ⟨S16002x2048, .f32⟩
  | .hbm, ⟨2, _⟩ => ⟨S2048, .f32⟩
  | .hbm, ⟨3, _⟩ => ⟨S_, .i32⟩
  | .hbm, ⟨4, _⟩ => ⟨S_, .f32⟩
  | .hbm, ⟨5, _⟩ => ⟨S2x34047, .f32⟩
  | .hbm, ⟨6, _⟩ => ⟨S2000, .i32⟩
  | .hbm, ⟨7, _⟩ => ⟨S2000x1, .i32⟩
  | .hbm, ⟨8, _⟩ => ⟨S_, .i32⟩
  | .hbm, ⟨9, _⟩ => ⟨S2000x1, .i32⟩
  | .hbm, ⟨10, _⟩ => ⟨S2000x1, .i32⟩
  | .hbm, ⟨11, _⟩ => ⟨S2048, .i32⟩
  | .hbm, ⟨12, _⟩ => ⟨S1x2048, .i32⟩
  | .hbm, ⟨13, _⟩ => ⟨S2000x2048, .i32⟩
  | .hbm, ⟨14, _⟩ => ⟨S2000x2048, .i32⟩
  | .hbm, ⟨15, _⟩ => ⟨S2000x2048, .i32⟩
  | .hbm, ⟨16, _⟩ => ⟨S_, .i32⟩
  | .hbm, ⟨17, _⟩ => ⟨S2000x2048, .i32⟩
  | .hbm, ⟨18, _⟩ => ⟨S2000x2048, .i1⟩
  | .hbm, ⟨19, _⟩ => ⟨S_, .i32⟩
  | .hbm, ⟨20, _⟩ => ⟨S2000x2048, .i32⟩
  | .hbm, ⟨21, _⟩ => ⟨S2000x2048, .i32⟩
  | .hbm, ⟨22, _⟩ => ⟨S2000x2048, .i32⟩
  | .hbm, ⟨23, _⟩ => ⟨S2000x2048x1, .i32⟩
  | .hbm, ⟨24, _⟩ => ⟨S2x2000x2048, .f32⟩
  | .hbm, ⟨25, _⟩ => ⟨S2x2000x2048, .bf16⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S2048, .f32⟩
  | .hbm, ⟨36, _⟩ => ⟨S2048, .f32⟩
  | .hbm, ⟨37, _⟩ => ⟨S1x2048, .f32⟩
  | .hbm, ⟨38, _⟩ => ⟨S2x16002x2000, .f32⟩
  | .hbm, ⟨39, _⟩ => ⟨S2x8001x2000, .f32⟩
  | .hbm, ⟨40, _⟩ => ⟨S2x8001x2000, .f32⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S1x2000x2048, .bf16⟩
  | .local _ .vmem, ⟨4, _⟩ => ⟨S1x640x2000, .f32⟩
  | .local _ .vmem, ⟨5, _⟩ => ⟨S1x640x2000, .f32⟩
  | _, _ => ⟨S2x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2000x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x640x2000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S2x32000_S2x34047_000_204700 : S2x32000.Pads (![0, 2047] : Fin 2 → Nat) ![0, 0] ![0, 0] S2x34047
  h_S_ : 0 < S_.numel
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2048_S1x2048_1 : S2048.BroadcastsInDim S1x2048 (![1] : Fin 1 → Fin S1x2048.rank)
  bcast_S2000x1_S2000x2048_0_1 : S2000x1.BroadcastsInDim S2000x2048 (![0, 1] : Fin 2 → Fin S2000x2048.rank)
  bcast_S1x2048_S2000x2048_0_1 : S1x2048.BroadcastsInDim S2000x2048 (![0, 1] : Fin 2 → Fin S2000x2048.rank)
  bcast_S_S2000x2048 : S_.BroadcastsInDim S2000x2048 (![] : Fin 0 → Fin S2000x2048.rank)
  bcast_S2000x2048_S2000x2048x1_0_1 : S2000x2048.BroadcastsInDim S2000x2048x1 (![0, 1] : Fin 2 → Fin S2000x2048x1.rank)
  bitsLt_bf16_f32 : FTy.bits .bf16 < FTy.bits .f32
  reducesTo_S2048_S_d0 : S2048.ReducesTo [0] S_
  bcast_S_S2048 : S_.BroadcastsInDim S2048 (![] : Fin 0 → Fin S2048.rank)
  shapeCasts_S2048_S1x2048 : S2048.ShapeCasts S1x2048
  inb_S640x2048_S640x2048_0_0 : ∀ a, (![0, 0] : Fin 2 → Nat) a + S640x2048.size a ≤ S640x2048.size a
  h_S640x2048 : 0 < S640x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S640x2048 : S1x2048.Broadcasts S640x2048
  inb_S1x2000x2048_S1x2000x2048_0_0_0 : ∀ a, (![0, 0, 0] : Fin 3 → Nat) a + S1x2000x2048.size a ≤ S1x2000x2048.size a
  h_S1x2000x2048 : 0 < S1x2000x2048.numel
  shapeCasts_S1x2000x2048_S2000x2048 : S1x2000x2048.ShapeCasts S2000x2048
  inb_S1x640x2000_S1x640x2000_0_0_0 : ∀ a, (![0, 0, 0] : Fin 3 → Nat) a + S1x640x2000.size a ≤ S1x640x2000.size a
  h_S1x640x2000 : 0 < S1x640x2000.numel
  shapeCasts_S1x640x2000_S640x2000 : S1x640x2000.ShapeCasts S640x2000
  shapeCasts_S640x2000_S1x640x2000 : S640x2000.ShapeCasts S1x640x2000
  slices_S2x16002x2000_S2x8001x2000_0_0_0 : S2x16002x2000.Slices ![0, 0, 0] S2x8001x2000
  slices_S2x16002x2000_S2x8001x2000_0_8001_0 : S2x16002x2000.Slices ![0, 8001, 0] S2x8001x2000
  gather_S2x34047_S2000x2048x1_S2x2000x2048_0_1_n_n_1_2_21_wf : GatherDims.WF S2x34047 S2000x2048x1 S2x2000x2048 [0] [1] [] [1] [] 2 ![2, 1]
  dot_S640x2048_S2000x2048_S640x2000_1_1_0_0_n_n_wf : DotDims.WF S640x2048 S2000x2048 S640x2000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S640x2048.size a < S16002x2048.size a
  hwx0_0 : ∀ i : grid0.Coords, EltTy.bits .f32 = 32 ∨ (Rect.unit (s := S16002x2048) (fun a => cc0_transform_0 i a * S640x2048.size a) (fun a => (Pipeline.Clip.of (cc0_transform_0 i a) (S640x2048.size a) (S16002x2048.size a)).extent (S640x2048.size a)) fun a => Pipeline.Clip.inb (Pipeline.Clip.ok_of (hstart0_0 i a))).WholeWords (EltTy.packing .f32)
  hwxs0_0 : ∀ i : grid0.Coords, EltTy.bits .f32 = 32 ∨ (Rect.unit (s := S640x2048) (fun _ => 0) (fun a => (Pipeline.Clip.of (cc0_transform_0 i a) (S640x2048.size a) (S16002x2048.size a)).extent (S640x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2000x2048.size a ≤ S2x2000x2048.size a
  hwx0_2 : ∀ i : grid0.Coords, EltTy.bits .bf16 = 32 ∨ (Rect.block (s := S2x2000x2048) S1x2000x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x640x2000.size a < S2x16002x2000.size a
  hwx0_3 : ∀ i : grid0.Coords, EltTy.bits .f32 = 32 ∨ (Rect.unit (s := S2x16002x2000) (fun a => cc0_transform_3 i a * S1x640x2000.size a) (fun a => (Pipeline.Clip.of (cc0_transform_3 i a) (S1x640x2000.size a) (S2x16002x2000.size a)).extent (S1x640x2000.size a)) fun a => Pipeline.Clip.inb (Pipeline.Clip.ok_of (hstart0_3 i a))).WholeWords (EltTy.packing .f32)
  hwxs0_3 : ∀ i : grid0.Coords, EltTy.bits .f32 = 32 ∨ (Rect.unit (s := S1x640x2000) (fun _ => 0) (fun a => (Pipeline.Clip.of (cc0_transform_3 i a) (S1x640x2000.size a) (S2x16002x2000.size a)).extent (S1x640x2000.size a)) fun a => (Nat.zero_add _).trans_le (Pipeline.Clip.extent_le (Pipeline.Clip.ok_of (hstart0_3 i a)))).WholeWords (EltTy.packing .f32)

variable [Facts₀]

def gather_S2x34047_S2000x2048x1_S2x2000x2048_0_1_n_n_1_2_21 : GatherDims S2x34047 S2000x2048x1 S2x2000x2048 where
  offsetDims := [0]
  collapsedSliceDims := [1]
  operandBatchingDims := []
  startIndicesBatchingDims := []
  startIndexMap := [1]
  indexVectorDim := 2
  sliceSizes := ![2, 1]
  wf := gather_S2x34047_S2000x2048x1_S2x2000x2048_0_1_n_n_1_2_21_wf
def dot_S640x2048_S2000x2048_S640x2000_1_1_0_0_n_n : DotDims S640x2048 S2000x2048 S640x2000 where
  lhsContracting := [1]
  rhsContracting := [1]
  lhsNonContracting := [0]
  rhsNonContracting := [0]
  lhsBatch := []
  rhsBatch := []
  wf := dot_S640x2048_S2000x2048_S640x2000_1_1_0_0_n_n_wf

abbrev win0_0 : Pipeline.Window sig grid0 :=
  Pipeline.Window.ofSpecClip (Memref.whole main_arg1) S640x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v25) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x2000x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v26) S1x640x2000.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x32000 : Shape := ⟨2, ![2, 32000]⟩
abbrev S16002x2048 : Shape := ⟨2, ![16002, 2048]⟩
abbrev S2048 : Shape := ⟨1, ![2048]⟩
abbrev S1x2048 : Shape := ⟨2, ![1, 2048]⟩
abbrev S_ : Shape := ⟨0, ![]⟩
abbrev S2x34047 : Shape := ⟨2, ![2, 34047]⟩
abbrev S2000 : Shape := ⟨1, ![2000]⟩
abbrev S2000x1 : Shape := ⟨2, ![2000, 1]⟩
abbrev S2000x2048 : Shape := ⟨2, ![2000, 2048]⟩
abbrev S2000x2048x1 : Shape := ⟨3, ![2000, 2048, 1]⟩
abbrev S2x2000x2048 : Shape := ⟨3, ![2, 2000, 2048]⟩
abbrev S16002x2x2000 : Shape := ⟨3, ![16002, 2, 2000]⟩
abbrev S2x16002x2000 : Shape := ⟨3, ![2, 16002, 2000]⟩
abbrev S2x8001x2000 : Shape := ⟨3, ![2, 8001, 2000]⟩

abbrev nBuf : Space → Nat
  | .hbm => 45
  | .vmem => 0
  | .smem => 0
  | _ => 0

abbrev bufTy : (tb : Table) → Fin (tcTables nBuf tb) → BufTy
  | .hbm, ⟨0, _⟩ => ⟨S2x32000, .f32⟩
  | .hbm, ⟨1, _⟩ => ⟨S16002x2048, .f32⟩
  | .hbm, ⟨2, _⟩ => ⟨S2048, .f32⟩
  | .hbm, ⟨3, _⟩ => ⟨S1x2048, .f32⟩
  | .hbm, ⟨4, _⟩ => ⟨S16002x2048, .f32⟩
  | .hbm, ⟨5, _⟩ => ⟨S16002x2048, .f32⟩
  | .hbm, ⟨6, _⟩ => ⟨S_, .f32⟩
  | .hbm, ⟨7, _⟩ => ⟨S16002x2048, .f32⟩
  | .hbm, ⟨8, _⟩ => ⟨S16002x2048, .f32⟩
  | .hbm, ⟨9, _⟩ => ⟨S_, .i32⟩
  | .hbm, ⟨10, _⟩ => ⟨S_, .f32⟩
  | .hbm, ⟨11, _⟩ => ⟨S2x34047, .f32⟩
  | .hbm, ⟨12, _⟩ => ⟨S2000, .i32⟩
  | .hbm, ⟨13, _⟩ => ⟨S2000x1, .i32⟩
  | .hbm, ⟨14, _⟩ => ⟨S_, .i32⟩
  | .hbm, ⟨15, _⟩ => ⟨S2000x1, .i32⟩
  | .hbm, ⟨16, _⟩ => ⟨S2000x1, .i32⟩
  | .hbm, ⟨17, _⟩ => ⟨S2048, .i32⟩
  | .hbm, ⟨18, _⟩ => ⟨S1x2048, .i32⟩
  | .hbm, ⟨19, _⟩ => ⟨S2000x2048, .i32⟩
  | .hbm, ⟨20, _⟩ => ⟨S2000x2048, .i32⟩
  | .hbm, ⟨21, _⟩ => ⟨S2000x2048, .i32⟩
  | .hbm, ⟨22, _⟩ => ⟨S_, .i32⟩
  | .hbm, ⟨23, _⟩ => ⟨S2000x2048, .i32⟩
  | .hbm, ⟨24, _⟩ => ⟨S2000x2048, .i1⟩
  | .hbm, ⟨25, _⟩ => ⟨S_, .i32⟩
  | .hbm, ⟨26, _⟩ => ⟨S2000x2048, .i32⟩
  | .hbm, ⟨27, _⟩ => ⟨S2000x2048, .i32⟩
  | .hbm, ⟨28, _⟩ => ⟨S2000x2048, .i32⟩
  | .hbm, ⟨29, _⟩ => ⟨S2000x2048x1, .i32⟩
  | .hbm, ⟨30, _⟩ => ⟨S2x2000x2048, .f32⟩
  | .hbm, ⟨31, _⟩ => ⟨S16002x2x2000, .f32⟩
  | .hbm, ⟨32, _⟩ => ⟨S2x16002x2000, .f32⟩
  | .hbm, ⟨33, _⟩ => ⟨S2x8001x2000, .f32⟩
  | .hbm, ⟨34, _⟩ => ⟨S2x8001x2000, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2x8001x2000, .f32⟩
  | .hbm, ⟨42, _⟩ => ⟨S2x8001x2000, .f32⟩
  | .hbm, ⟨43, _⟩ => ⟨S2x8001x2000, .f32⟩
  | .hbm, ⟨44, _⟩ => ⟨S2x8001x2000, .f32⟩
  | _, _ => ⟨S2x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16002x2048_0_1 : S1x2048.BroadcastsInDim S16002x2048 (![0, 1] : Fin 2 → Fin S16002x2048.rank)
  bcast_S_S16002x2048 : S_.BroadcastsInDim S16002x2048 (![] : Fin 0 → Fin S16002x2048.rank)
  pads_S2x32000_S2x34047_000_204700 : S2x32000.Pads (![0, 2047] : Fin 2 → Nat) ![0, 0] ![0, 0] S2x34047
  h_S_ : 0 < S_.numel
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x2048_0_1 : S2000x1.BroadcastsInDim S2000x2048 (![0, 1] : Fin 2 → Fin S2000x2048.rank)
  bcast_S1x2048_S2000x2048_0_1 : S1x2048.BroadcastsInDim S2000x2048 (![0, 1] : Fin 2 → Fin S2000x2048.rank)
  bcast_S_S2000x2048 : S_.BroadcastsInDim S2000x2048 (![] : Fin 0 → Fin S2000x2048.rank)
  bcast_S2000x2048_S2000x2048x1_0_1 : S2000x2048.BroadcastsInDim S2000x2048x1 (![0, 1] : Fin 2 → Fin S2000x2048x1.rank)
  transposes_S16002x2x2000_S2x16002x2000_1_0_2 : S16002x2x2000.Transposes [1, 0, 2] S2x16002x2000
  slices_S2x16002x2000_S2x8001x2000_0_0_0 : S2x16002x2000.Slices ![0, 0, 0] S2x8001x2000
  slices_S2x16002x2000_S2x8001x2000_0_8001_0 : S2x16002x2000.Slices ![0, 8001, 0] S2x8001x2000
  reducesTo_S2048_S_d0 : S2048.ReducesTo [0] S_
  bcast_S_S2x8001x2000 : S_.BroadcastsInDim S2x8001x2000 (![] : Fin 0 → Fin S2x8001x2000.rank)
  gather_S2x34047_S2000x2048x1_S2x2000x2048_0_1_n_n_1_2_21_wf : GatherDims.WF S2x34047 S2000x2048x1 S2x2000x2048 [0] [1] [] [1] [] 2 ![2, 1]
  dot_S16002x2048_S2x2000x2048_S16002x2x2000_1_2_0_01_n_n_wf : DotDims.WF S16002x2048 S2x2000x2048 S16002x2x2000 [1] [2] [0] [0, 1] [] []

variable [Facts₀]

def gather_S2x34047_S2000x2048x1_S2x2000x2048_0_1_n_n_1_2_21 : GatherDims S2x34047 S2000x2048x1 S2x2000x2048 where
  offsetDims := [0]
  collapsedSliceDims := [1]
  operandBatchingDims := []
  startIndicesBatchingDims := []
  startIndexMap := [1]
  indexVectorDim := 2
  sliceSizes := ![2, 1]
  wf := gather_S2x34047_S2000x2048x1_S2x2000x2048_0_1_n_n_1_2_21_wf
def dot_S16002x2048_S2x2000x2048_S16002x2x2000_1_2_0_01_n_n : DotDims S16002x2048 S2x2000x2048 S16002x2x2000 where
  lhsContracting := [1]
  rhsContracting := [2]
  lhsNonContracting := [0]
  rhsNonContracting := [0, 1]
  lhsBatch := []
  rhsBatch := []
  wf := dot_S16002x2048_S2x2000x2048_S16002x2x2000_1_2_0_01_n_n_wf

class Facts : Prop extends Facts₀ where

variable [Facts]
-- ==== Proof.KBody.lean ====
/-
  The kernel body's triple, at any instance: on whichever staging buffers the pipeline hands it, the body loads the filterbank
  block, the envelope vector and the batch's frames whole, loads the product buffer (a value nothing uses) and stores the
  product of the three whole into the product buffer; the three input buffers are left as found.
-/
import proofs.«175995_j34505767256674_1_alg».proof.Proof.Gen.Kernel.Launch
import proofs.«175995_j34505767256674_1_alg».proof.Proof.Gen.Kernel.Skeleton
import Idealize.ShloMosaic.Lib.Pipeline.Kit
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

/-- The kernel has no loop: no variants. -/
abbrev 𝒱₀ : Variants := Variants.none

theorem hz2 : (![0, 0] : Fin 2 → Nat) = fun _ => 0 := funext fun a => by fin_cases a <;> rfl
theorem hz3 : (![0, 0, 0] : Fin 3 → Nat) = fun _ => 0 := funext fun a => by fin_cases a <;> rfl

/-- One case of the staging slots: the four buffers named. -/
local macro "body_case" b0:ident b1:ident b2:ident b3:ident : tactic => `(tactic| (
  have hr0 : (Memref.whole $b0 : Memref sig .tc _ _ _).view.readAt (Elt F) (Rect.unit (s := S640x2048) ![0, 0] S640x2048.size
      Facts₀.inb_S640x2048_S640x2048_0_0).toLoadRect = id := funext (Memref.readAt_unit_zero (Elt F) $b0 hz2 _)
  have hr1 : (Memref.whole $b1 : Memref sig .tc _ _ _).view.readAt (Elt F) (Rect.unit (s := S1x2048) ![0, 0] S1x2048.size
      Facts₀.inb_S1x2048_S1x2048_0_0).toLoadRect = id := funext (Memref.readAt_unit_zero (Elt F) $b1 hz2 _)
  have hr2 : (Memref.whole $b2 : Memref sig .tc _ _ _).view.readAt (Elt F) (Rect.unit (s := S1x2000x2048) ![0, 0, 0] S1x2000x2048.size
      Facts₀.inb_S1x2000x2048_S1x2000x2048_0_0_0).toLoadRect = id := funext (Memref.readAt_unit_zero (Elt F) $b2 hz3 _)
  have hw3 : ∀ f w, (((Memref.whole $b3).access (Rect.unit (s := S1x640x2000) ![0, 0, 0] S1x640x2000.size Facts₀.inb_S1x640x2000_S1x640x2000_0_0_0)) :
      View sig .tc _ _ _).write (Elt F) f w Finset.univ = w := Memref.write_access_unit_zero_univ (Elt F) $b3 hz3 _
  simp only [owns_whole_eq, cc0__conv_kernel_eq_skeleton]; unfold cc0__conv_kernel_skel
  simp only [Prog.lift, Prog.bind_op, Prog.bind_ret]
  iintro ⟨⟨⟨%f0, %hf0, H0⟩, ⟨%f1, %hf1, H1⟩, ⟨%f2, %hf2, H2⟩, ⟨%f3, %hf3, H3⟩⟩, Hk⟩
  sl_steps
  iapply Hk
  rw [hr0, hr1, hr2, hw3]
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  · iexists k0_pay1 f0 f1 f2; isplitr; · ipureintro; rw [hf0, hf1, hf2]
    iexact H3))

set_option maxHeartbeats 1600000 in
theorem sound_body (c : Dev nD) (E : Set ℕ) (i : grid0.Coords) (s0 : Fin 2) (s1 : Fin 1) (s2 : Fin 1) (s3 : Fin 2)
    (X0 : Vec F S640x2048 .f32) (X1 : Vec F S1x2048 .f32) (X2 : Vec F S1x2000x2048 .bf16) (X3 : Vec F S1x640x2000 .f32)
    (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (k0_pay1 X0 X1 X2)) -∗ K ⟨⟩))
      ⊢ wp frame (wpE (defs₀ (F := F)) 𝒱₀ c none) E
          (cc0__conv_kernel i (stage0_0 s0) (Facts₀.hstage0_0 s0) (stage0_1 s1) (Facts₀.hstage0_1 s1) (stage0_2 s2) (Facts₀.hstage0_2 s2)
            (stage0_3 s3) (Facts₀.hstage0_3 s3)) K := by
  fin_cases s0 <;> fin_cases s1 <;> fin_cases s2 <;> fin_cases s3
  · body_case cc0_stg0_0 cc0_stg1_0 cc0_stg2_0 cc0_stg3_0
  · body_case cc0_stg0_0 cc0_stg1_0 cc0_stg2_0 cc0_stg3_1
  · body_case cc0_stg0_1 cc0_stg1_0 cc0_stg2_0 cc0_stg3_0
  · body_case cc0_stg0_1 cc0_stg1_0 cc0_stg2_0 cc0_stg3_1

end Cert.Kernel.Hand

end
-- ==== Proof.KFrame.lean ====
/-
  The frame of the kernel's program as printed in this directory, at any instance, from relational proof data that say nothing of what the body
  leaves in a staging buffer: the body needs nothing of what it is handed (it loads, multiplies and stores; no branch, index or
  check reads a word of the blocks), so from any contents it runs and hands the buffers back. The filterbank's array is an input
  window's and is never written; the waveform and the envelope are no window's array and no host operation writes them.
-/
import proofs.«175995_j34505767256674_1_alg».proof.Proof.KBody
import proofs.«175995_j34505767256674_1_alg».proof.Proof.Gen.Kernel.Frame
import proofs.«175995_j34505767256674_1_alg».proof.Proof.Gen.Kernel.Points
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data: the arrays as the region finds them; of the staging buffers, nothing. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body obligation: whatever the four current staging buffers hold, the body runs and hands them back. -/
theorem body_rel (c : Dev nD) : (rdat m c).BodyObligation (defs₀ (F := F)) 𝒱₀ () Set.univ := fun t Y hY => by
  rw [bigSep_W0, bigSep_W0]
  rw [show (rdat m c).Φ t.succ = (rdat m c).Φ t.castSucc from rfl,
    show (rdat m c).owesAt () t.succ = (rdat m c).owesAt () t.castSucc from rfl]
  iintro ⟨HΦ, Ho, H0, H1, H2, H3⟩
  iapply (sound_body (F := F) c Set.univ (grid0.coords t) (cfg0.slots t 0) (cfg0.slots t 1) (cfg0.slots t 2) (cfg0.slots t 3)
    (Y 0) (Y 1) (Y 2) (Y 3) _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  · iexists (k0_pay1 (Y 0) (Y 1) (Y 2)); isplitr; · ipureintro; trivial
    iexact H3

/-- The buffers the two slices after the region write. -/
def tailWrites : Finset (Ref sig .tc) := {main_v27, main_v28}

theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl | rfl
  · rw [StableHlo.unary_writes, Finset.mem_singleton] at hb
    obtain rfl : b = main_v27 := Proc.devRef_injective (τ := τ) _ hb
    decide
  · rw [StableHlo.unary_writes, Finset.mem_singleton] at hb
    obtain rfl : b = main_v28 := Proc.devRef_injective (τ := τ) _ hb
    decide

/-- Every weakly fair execution of the program terminates without a fault, the windows' arrays at contents the
    write-backs allow and every other unscoped buffer the slices do not write as the region found it. -/
theorem run_rel : θ_run defs (onTc (τ := τ) (main (F := F))) (s₀ m ρ)
    (Pipeline.RDat.FramePostR cfg0 (rdat m) tailWrites (V m)) :=
  Pipeline.RDat.θ_run_frame_around_T cfgs 0 launch0 (defs₀ (F := F)) 𝒱₀ (rdat m) tailWrites m ρ main
    (hbody := body_rel m) (hshare := fun c => (rdat m c).share_full fun _ => rfl) (howed := fun _ _ => rfl)
    (V₀ := V0 m) (opss := [hostOps1]) (hsub := sfx_sub) (hfresh := sfx_fresh) (hkeep := sfx_keeps) (hT := tail_writes)
    (hmain := hmain m 𝒱₀) (hA := fun _ _ => rfl) (hΦ := fun _ _ => rfl)

/-- The frame claim's post: the three argument arrays end as launched. -/
theorem frame_post : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_arg0 (Finset.mem_sdiff.mpr ⟨Pipeline.mem_restRefs_of main_arg0 (by decide) (by decide), by decide⟩)).trans (V_main_arg0 m c),
     (Pipeline.RDat.FramePostR.arr_in h c 0 rfl).trans (V_main_arg1 m c),
     ((h c).2 main_arg2 (Finset.mem_sdiff.mpr ⟨Pipeline.mem_restRefs_of main_arg2 (by decide) (by decide), by decide⟩)).trans (V_main_arg2 m c)⟩)
    (run_rel m ρ)

end Cert.Kernel.Hand

end
-- ==== Proof.KiBody.lean ====
/-
  The kernel body's triple, at any instance: on whichever staging buffers the pipeline hands it, the body loads the filterbank
  block, the envelope vector and the batch's frames whole, loads the product buffer (a value nothing uses) and stores the
  product of the three whole into the product buffer; the three input buffers are left as found.
-/
import proofs.«175995_j34505767256674_1_alg».proof.Proof.Gen.KernelIdeal.Launch
import proofs.«175995_j34505767256674_1_alg».proof.Proof.Gen.KernelIdeal.Skeleton
import Idealize.ShloMosaic.Lib.Pipeline.Kit
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

/-- The kernel has no loop: no variants. -/
abbrev 𝒱₀ : Variants := Variants.none

theorem hz2 : (![0, 0] : Fin 2 → Nat) = fun _ => 0 := funext fun a => by fin_cases a <;> rfl
theorem hz3 : (![0, 0, 0] : Fin 3 → Nat) = fun _ => 0 := funext fun a => by fin_cases a <;> rfl

/-- One case of the staging slots: the four buffers named. -/
local macro "body_case" b0:ident b1:ident b2:ident b3:ident : tactic => `(tactic| (
  have hr0 : (Memref.whole $b0 : Memref sig .tc _ _ _).view.readAt (Elt F) (Rect.unit (s := S640x2048) ![0, 0] S640x2048.size
      Facts₀.inb_S640x2048_S640x2048_0_0).toLoadRect = id := funext (Memref.readAt_unit_zero (Elt F) $b0 hz2 _)
  have hr1 : (Memref.whole $b1 : Memref sig .tc _ _ _).view.readAt (Elt F) (Rect.unit (s := S1x2048) ![0, 0] S1x2048.size
      Facts₀.inb_S1x2048_S1x2048_0_0).toLoadRect = id := funext (Memref.readAt_unit_zero (Elt F) $b1 hz2 _)
  have hr2 : (Memref.whole $b2 : Memref sig .tc _ _ _).view.readAt (Elt F) (Rect.unit (s := S1x2000x2048) ![0, 0, 0] S1x2000x2048.size
      Facts₀.inb_S1x2000x2048_S1x2000x2048_0_0_0).toLoadRect = id := funext (Memref.readAt_unit_zero (Elt F) $b2 hz3 _)
  have hw3 : ∀ f w, (((Memref.whole $b3).access (Rect.unit (s := S1x640x2000) ![0, 0, 0] S1x640x2000.size Facts₀.inb_S1x640x2000_S1x640x2000_0_0_0)) :
      View sig .tc _ _ _).write (Elt F) f w Finset.univ = w := Memref.write_access_unit_zero_univ (Elt F) $b3 hz3 _
  simp only [owns_whole_eq, cc0__conv_kernel_eq_skeleton]; unfold cc0__conv_kernel_skel
  simp only [Prog.lift, Prog.bind_op, Prog.bind_ret]
  iintro ⟨⟨⟨%f0, %hf0, H0⟩, ⟨%f1, %hf1, H1⟩, ⟨%f2, %hf2, H2⟩, ⟨%f3, %hf3, H3⟩⟩, Hk⟩
  sl_steps
  iapply Hk
  rw [hr0, hr1, hr2, hw3]
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  · iexists k0_pay1 f0 f1 f2; isplitr; · ipureintro; rw [hf0, hf1, hf2]
    iexact H3))

set_option maxHeartbeats 1600000 in
theorem sound_body (c : Dev nD) (E : Set ℕ) (i : grid0.Coords) (s0 : Fin 2) (s1 : Fin 1) (s2 : Fin 1) (s3 : Fin 2)
    (X0 : Vec F S640x2048 .f32) (X1 : Vec F S1x2048 .f32) (X2 : Vec F S1x2000x2048 .bf16) (X3 : Vec F S1x640x2000 .f32)
    (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (k0_pay1 X0 X1 X2)) -∗ K ⟨⟩))
      ⊢ wp frame (wpE (defs₀ (F := F)) 𝒱₀ c none) E
          (cc0__conv_kernel i (stage0_0 s0) (Facts₀.hstage0_0 s0) (stage0_1 s1) (Facts₀.hstage0_1 s1) (stage0_2 s2) (Facts₀.hstage0_2 s2)
            (stage0_3 s3) (Facts₀.hstage0_3 s3)) K := by
  fin_cases s0 <;> fin_cases s1 <;> fin_cases s2 <;> fin_cases s3
  · body_case cc0_stg0_0 cc0_stg1_0 cc0_stg2_0 cc0_stg3_0
  · body_case cc0_stg0_0 cc0_stg1_0 cc0_stg2_0 cc0_stg3_1
  · body_case cc0_stg0_1 cc0_stg1_0 cc0_stg2_0 cc0_stg3_0
  · body_case cc0_stg0_1 cc0_stg1_0 cc0_stg2_0 cc0_stg3_1

end Cert.KernelIdeal.Hand

end
-- ==== Proof.KiFrame.lean ====
/-
  The frame of the kernel's program as printed in this directory, at any instance, from relational proof data that say nothing of what the body
  leaves in a staging buffer: the body needs nothing of what it is handed (it loads, multiplies and stores; no branch, index or
  check reads a word of the blocks), so from any contents it runs and hands the buffers back. The filterbank's array is an input
  window's and is never written; the waveform and the envelope are no window's array and no host operation writes them.
-/
import proofs.«175995_j34505767256674_1_alg».proof.Proof.KiBody
import proofs.«175995_j34505767256674_1_alg».proof.Proof.Gen.KernelIdeal.Frame
import proofs.«175995_j34505767256674_1_alg».proof.Proof.Gen.KernelIdeal.Points
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data: the arrays as the region finds them; of the staging buffers, nothing. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body obligation: whatever the four current staging buffers hold, the body runs and hands them back. -/
theorem body_rel (c : Dev nD) : (rdat m c).BodyObligation (defs₀ (F := F)) 𝒱₀ () Set.univ := fun t Y hY => by
  rw [bigSep_W0, bigSep_W0]
  rw [show (rdat m c).Φ t.succ = (rdat m c).Φ t.castSucc from rfl,
    show (rdat m c).owesAt () t.succ = (rdat m c).owesAt () t.castSucc from rfl]
  iintro ⟨HΦ, Ho, H0, H1, H2, H3⟩
  iapply (sound_body (F := F) c Set.univ (grid0.coords t) (cfg0.slots t 0) (cfg0.slots t 1) (cfg0.slots t 2) (cfg0.slots t 3)
    (Y 0) (Y 1) (Y 2) (Y 3) _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  · iexists (k0_pay1 (Y 0) (Y 1) (Y 2)); isplitr; · ipureintro; trivial
    iexact H3

/-- The buffers the two slices after the region write. -/
def tailWrites : Finset (Ref sig .tc) := {main_v27, main_v28}

theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl | rfl
  · rw [StableHlo.unary_writes, Finset.mem_singleton] at hb
    obtain rfl : b = main_v27 := Proc.devRef_injective (τ := τ) _ hb
    decide
  · rw [StableHlo.unary_writes, Finset.mem_singleton] at hb
    obtain rfl : b = main_v28 := Proc.devRef_injective (τ := τ) _ hb
    decide

/-- Every weakly fair execution of the program terminates without a fault, the windows' arrays at contents the
    write-backs allow and every other unscoped buffer the slices do not write as the region found it. -/
theorem run_rel : θ_run defs (onTc (τ := τ) (main (F := F))) (s₀ m ρ)
    (Pipeline.RDat.FramePostR cfg0 (rdat m) tailWrites (V m)) :=
  Pipeline.RDat.θ_run_frame_around_T cfgs 0 launch0 (defs₀ (F := F)) 𝒱₀ (rdat m) tailWrites m ρ main
    (hbody := body_rel m) (hshare := fun c => (rdat m c).share_full fun _ => rfl) (howed := fun _ _ => rfl)
    (V₀ := V0 m) (opss := [hostOps1]) (hsub := sfx_sub) (hfresh := sfx_fresh) (hkeep := sfx_keeps) (hT := tail_writes)
    (hmain := hmain m 𝒱₀) (hA := fun _ _ => rfl) (hΦ := fun _ _ => rfl)

/-- The frame claim's post: the three argument arrays end as launched. -/
theorem frame_post : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_arg0 (Finset.mem_sdiff.mpr ⟨Pipeline.mem_restRefs_of main_arg0 (by decide) (by decide), by decide⟩)).trans (V_main_arg0 m c),
     (Pipeline.RDat.FramePostR.arr_in h c 0 rfl).trans (V_main_arg1 m c),
     ((h c).2 main_arg2 (Finset.mem_sdiff.mpr ⟨Pipeline.mem_restRefs_of main_arg2 (by decide) (by decide), by decide⟩)).trans (V_main_arg2 m c)⟩)
    (run_rel m ρ)

end Cert.KernelIdeal.Hand

end
-- ==== Proof.Spec.lean ====
/-
  What the two programs compute, as functions of the argument arrays over the extended reals, and the law that joins them.

  With `e` the envelope (2048 taps), `K` the filterbank (16002 × 2048) and `fr` the strided frames of the padded
  waveform (2 × 2000 × 2048), write `σ = rt8 / ((∑ₖ eₖ) / sr)` for the normalisation. The kernel folds `σ` into each tap
  before the contraction, `∑ₖ (K f k · ((eₖ / sr) · σ)) · fr b t k`; the reference scales the finished contraction,
  `(∑ₖ ((K f k · eₖ) / sr) · fr b t k) · σ`. Over finite entries with `∑ₖ eₖ ≠ 0` every factor is a real number and the two
  agree by distributivity; with an infinite `σ` (a zero envelope sum) they need not.
-/
import Idealize.ShloMosaic.PureOps.Ideal
import Idealize.ShloMosaic.Lib.ValueIdx

noncomputable section

namespace Cert.Spec

open Idealize.ShloMosaic Idealize.ShloMosaic.ValueIdx

/-- The sample rate's word (16000.0) and the word of √8 as both programs carry them. -/
def srW : EReal := Ideal.ofBits .f32 0x467A0000#32
def rt8 : EReal := Ideal.ofBits .f32 0x403504F3#32

/-- The envelope's sum. -/
def envSum (e : (⟨1, ![2048]⟩ : Shape).Idx → EReal) : EReal := ∑ k : Fin 2048, e (ix1 k)

/-- The normalisation `√8 / (∑ e / sr)`. -/
def scale (e : (⟨1, ![2048]⟩ : Shape).Idx → EReal) : EReal := Ideal.div rt8 (Ideal.div (envSum e) srW)

/-- Tap `k` of the kernel's folded envelope vector: `(eₖ / sr) · σ`. -/
def tap (e : (⟨1, ![2048]⟩ : Shape).Idx → EReal) (k : Fin 2048) : EReal := Ideal.div (e (ix1 k)) srW * scale e

/-- The kernel's product at batch `b`, filter row `f`, frame `t`. -/
def kerOut (fr : (⟨3, ![2, 2000, 2048]⟩ : Shape).Idx → EReal) (K : (⟨2, ![16002, 2048]⟩ : Shape).Idx → EReal)
    (e : (⟨1, ![2048]⟩ : Shape).Idx → EReal) (b : Fin 2) (f : Fin 16002) (t : Fin 2000) : EReal :=
  ∑ k : Fin 2048, (K (ix2 f k) * tap e k) * fr (ix3 b t k)

/-- The reference's: the contraction of the envelope-weighted filterbank with the frames, then the normalisation. -/
def refOut (fr : (⟨3, ![2, 2000, 2048]⟩ : Shape).Idx → EReal) (K : (⟨2, ![16002, 2048]⟩ : Shape).Idx → EReal)
    (e : (⟨1, ![2048]⟩ : Shape).Idx → EReal) (b : Fin 2) (f : Fin 16002) (t : Fin 2000) : EReal :=
  (∑ k : Fin 2048, Ideal.div (K (ix2 f k) * e (ix1 k)) srW * fr (ix3 b t k)) * scale e

/-- The sine half (filter rows 0 ‥ 8000) and the cosine half (rows 8001 ‥ 16001) of a product array. -/
def resLo (G : Fin 2 → Fin 16002 → Fin 2000 → EReal) : (⟨3, ![2, 8001, 2000]⟩ : Shape).Idx → EReal := fun i =>
  G ⟨(i 0).val, (i 0).isLt⟩ ⟨(i 1).val, lt_trans (show (i 1).val < 8001 from (i 1).isLt) (by norm_num)⟩ ⟨(i 2).val, (i 2).isLt⟩
def resHi (G : Fin 2 → Fin 16002 → Fin 2000 → EReal) : (⟨3, ![2, 8001, 2000]⟩ : Shape).Idx → EReal := fun i =>
  G ⟨(i 0).val, (i 0).isLt⟩ ⟨(i 1).val + 8001, by have h : (i 1).val < 8001 := (i 1).isLt; omega⟩ ⟨(i 2).val, (i 2).isLt⟩

end Cert.Spec

end
-- ==== Proof.KiDefs.lean ====
/-
  The kernel side's vocabulary for the value and frame proofs of the idealized kernel.

  `framesOf wav` is the strided-frame array both programs build on the host before their contraction: the waveform padded
  in front by 2047 zeros, gathered at `16·t + k` (frame `t`, tap `k`). It is carried as one function of the waveform and never
  opened, except to see that every entry of it is an entry of the waveform or the padding zero.

  `dats` is the pipeline's proof data at the ideal instance: the filterbank's window (blocks of 640 rows, the last of which
  overhangs the 16002-row array and is cut to two rows) is taken with its rows past the array's end filled with zeros, and the
  product window holds the body's matrix product of that block with the envelope vector and the batch's frames. A row of the
  product depends on the same row of the filterbank block only, so the rows written back do not depend on the filling.

  `rdat` is the relational data of the frame claims: nothing is said of what the body leaves in any staging buffer.
-/
import proofs.«175995_j34505767256674_1_alg».proof.Proof.Gen.KernelIdeal.Frame
import proofs.«175995_j34505767256674_1_alg».proof.Proof.Gen.KernelIdeal.Skeleton
import proofs.«175995_j34505767256674_1_alg».proof.Proof.Spec

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat RDat Cfg Window)

/-- The gather's start indices `16·t + k` (with jnp's wrap of a negative index, which never binds here). -/
def startIdx : IVec S2000x2048x1 32 :=
  let v1 : IVec S2000 32 := iotaInDim S2000 32 0
  let v2 : IVec S2000x1 32 := broadcastInDim S2000x1 ![0] Facts₀.bcast_S2000_S2000x1_0 v1
  let v3 : IVec S2000x1 32 := broadcastInDim S2000x1 ![] Facts₀.bcast_S_S2000x1 (constantI S_ 32 16#32)
  let v4 : IVec S2000x1 32 := muli v2 v3
  let v5 : IVec S2048 32 := iotaInDim S2048 32 0
  let v6 : IVec S1x2048 32 := broadcastInDim S1x2048 ![1] Facts₀.bcast_S2048_S1x2048_1 v5
  let v7 : IVec S2000x2048 32 := broadcastInDim S2000x2048 ![0, 1] Facts₀.bcast_S2000x1_S2000x2048_0_1 v4
  let v8 : IVec S2000x2048 32 := broadcastInDim S2000x2048 ![0, 1] Facts₀.bcast_S1x2048_S2000x2048_0_1 v6
  let v9 : IVec S2000x2048 32 := addi v7 v8
  let v10 : IVec S2000x2048 32 := broadcastInDim S2000x2048 ![] Facts₀.bcast_S_S2000x2048 (constantI S_ 32 0#32)
  let v11 : IVec S2000x2048 1 := cmpi .slt v9 v10
  let v12 : IVec S2000x2048 32 := broadcastInDim S2000x2048 ![] Facts₀.bcast_S_S2000x2048 (constantI S_ 32 34047#32)
  let v13 : IVec S2000x2048 32 := addi v9 v12
  let v14 : IVec S2000x2048 32 := select v11 v13 v9
  broadcastInDim S2000x2048x1 ![0, 1] Facts₀.bcast_S2000x2048_S2000x2048x1_0_1 v14

/-- The frames of the padded waveform (the kernel's copy narrows them to bf16: at the ideal instance, nothing). -/
def framesOf (wav : FVec Ideal S2x32000 .f32) : FVec Ideal S2x2000x2048 .bf16 :=
  truncf .bf16 (Host.gather gather_S2x34047_S2000x2048x1_S2x2000x2048_0_1_n_n_1_2_21
    (pad S2x34047 ![0, 2047] ![0, 0] ![0, 0] wav (sitofp (F := Ideal) .f32 (constantI S_ 32 0#32)) Facts₀.pads_S2x32000_S2x34047_000_204700 Facts₀.h_S_)
    startIdx) Facts₀.bitsLt_bf16_f32

variable (m : (ℓ : Loc nD τ sig) → Buf (Elt Ideal) ℓ)

/-- The filterbank's block at point `t`, its rows past the array's end (at the last tile) filled with zeros. -/
def kblk (c : Dev nD) (t : Fin cfg0.N) : Vec Ideal S640x2048 .f32 :=
  win0_0.fill (grid0.coords t) (fun _ => (show Elt Ideal .f32 from (0 : EReal))) (iblk m c 0 t)

/-- What the body leaves in the product's staging buffer at point `t` (past the array's end: the product of the zero rows). -/
def oblk (c : Dev nD) (t : Fin cfg0.N) : Vec Ideal S1x640x2000 .f32 :=
  k0_pay1 (F := Ideal) (kblk m c t) (iblk m c 1 t) (iblk m c 2 t)

/-- The proof data of the one pipeline at the ideal instance. -/
def dats (_ : Fin 1) (c : Dev nD) : Dat τ (Elt Ideal) Unit ℕ (UR sig nD τ) ℕ cfg0 c where
  A w := V m c (Pipeline.arrRef spec0 w)
  after w t := match w with
    | ⟨0, _⟩ => kblk m c t
    | ⟨1, _⟩ => iblk m c 1 t
    | ⟨2, _⟩ => iblk m c 2 t
    | ⟨3, _⟩ => oblk m c t
  Φ _ := Pipeline.ΦA spec0 c
  q _ := fullShare
  owed _ := 0

end Cert.KernelIdeal.Hand

end
-- ==== Proof.KiPay.lean ====
/-
  The body's product read at an index, at the ideal instance: entry (r, q) of the block is the contraction over the 2048 taps of
  row r of the filterbank block, weighted tap by tap by the envelope vector, with frame q.
-/
import proofs.«175995_j34505767256674_1_alg».proof.Proof.KiDefs
import Idealize.ShloMosaic.PureOps.Ideal.Laws
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.Sem
open Idealize.ShloMosaic.Rounds
open Idealize.ShloMosaic.Pipeline (Dat RDat Cfg Window)

/-! ## The product's operand indices

The product contracts axis 1 of the left operand (a [640, 2048] block) with axis 1 of the right ([2000, 2048]); the
result's axis 0 is the left operand's free axis 0 and its axis 1 the right operand's free axis 0. So at the result index
(r, q) and contraction index k the left operand is read at (r, k) and the right at (q, k). -/

/-- The left operand's row is the result's row. -/
private theorem lhs_pay_0 (i : S640x2000.Idx) (q : dot_S640x2048_S2000x2048_S640x2000_1_1_0_0_n_n.contr.Idx) :
    (dot_S640x2048_S2000x2048_S640x2000_1_1_0_0_n_n.lhsIdx i q 0).val = (i 0).val := by
  unfold DotDims.lhsIdx
  rw [dif_neg (show ¬(0 : Fin S640x2048.rank) ∈ dot_S640x2048_S2000x2048_S640x2000_1_1_0_0_n_n.lhsBatch by decide), dif_pos (show (0 : Fin S640x2048.rank) ∈ dot_S640x2048_S2000x2048_S640x2000_1_1_0_0_n_n.lhsNonContracting by decide)]
  rfl

/-- The left operand's column is the contraction index. -/
private theorem lhs_pay_1 (i : S640x2000.Idx) (q : dot_S640x2048_S2000x2048_S640x2000_1_1_0_0_n_n.contr.Idx) :
    (dot_S640x2048_S2000x2048_S640x2000_1_1_0_0_n_n.lhsIdx i q 1).val = (q ⟨0, by decide⟩).val :=
  dot_S640x2048_S2000x2048_S640x2000_1_1_0_0_n_n.lhsIdx_val_of_single rfl i q

/-- The right operand's row is the result's column. -/
private theorem rhs_pay_0 (i : S640x2000.Idx) (q : dot_S640x2048_S2000x2048_S640x2000_1_1_0_0_n_n.contr.Idx) :
    (dot_S640x2048_S2000x2048_S640x2000_1_1_0_0_n_n.rhsIdx i q 0).val = (i 1).val := by
  unfold DotDims.rhsIdx
  rw [dif_neg (show ¬(0 : Fin S2000x2048.rank) ∈ dot_S640x2048_S2000x2048_S640x2000_1_1_0_0_n_n.rhsBatch by decide), dif_pos (show (0 : Fin S2000x2048.rank) ∈ dot_S640x2048_S2000x2048_S640x2000_1_1_0_0_n_n.rhsNonContracting by decide)]
  rfl

/-- The right operand's column is the contraction index. -/
private theorem rhs_pay_1 (i : S640x2000.Idx) (q : dot_S640x2048_S2000x2048_S640x2000_1_1_0_0_n_n.contr.Idx) :
    (dot_S640x2048_S2000x2048_S640x2000_1_1_0_0_n_n.rhsIdx i q 1).val = (q ⟨0, by decide⟩).val :=
  dot_S640x2048_S2000x2048_S640x2000_1_1_0_0_n_n.rhsIdx_val_of_single rfl i q

/-- The matrix product into the zero block, read at (r, q): the sum over the 2048 taps of the left operand's row r times
    the right operand's row q. -/
private theorem mm_apply (A : FVec Ideal S640x2048 .bf16) (B : FVec Ideal S2000x2048 .bf16) (r : Fin 640) (q : Fin 2000) :
    matmul dot_S640x2048_S2000x2048_S640x2000_1_1_0_0_n_n none A B (constant (F := Ideal) S640x2000 .f32 0x00000000#32) (ix2 r q)
      = ∑ k : Fin 2048, A (ix2 r k) * B (ix2 q k) := by
  refine (Ideal.matmul_constant_zero_apply dot_S640x2048_S2000x2048_S640x2000_1_1_0_0_n_n none A B (ix2 r q)).trans ?_
  rw [← Equiv.sum_comp (ValueIdx.contrEquiv1 dot_S640x2048_S2000x2048_S640x2000_1_1_0_0_n_n 2048 rfl rfl).symm]
  refine Finset.sum_congr rfl fun k _ => ?_
  have hk := ValueIdx.contrEquiv1_symm_val dot_S640x2048_S2000x2048_S640x2000_1_1_0_0_n_n 2048 rfl rfl k
  have el : dot_S640x2048_S2000x2048_S640x2000_1_1_0_0_n_n.lhsIdx (ix2 r q) ((ValueIdx.contrEquiv1 dot_S640x2048_S2000x2048_S640x2000_1_1_0_0_n_n 2048 rfl rfl).symm k) = ix2 r k := funext fun a => Fin.ext (by
    match a with
    | ⟨0, _⟩ => exact lhs_pay_0 _ _
    | ⟨1, _⟩ => exact (lhs_pay_1 _ _).trans hk)
  have er : dot_S640x2048_S2000x2048_S640x2000_1_1_0_0_n_n.rhsIdx (ix2 r q) ((ValueIdx.contrEquiv1 dot_S640x2048_S2000x2048_S640x2000_1_1_0_0_n_n 2048 rfl rfl).symm k) = ix2 q k := funext fun a => Fin.ext (by
    match a with
    | ⟨0, _⟩ => exact rhs_pay_0 _ _
    | ⟨1, _⟩ => exact (rhs_pay_1 _ _).trans hk)
  rw [el, er]

theorem pay_apply (X0 : Vec Ideal S640x2048 .f32) (X1 : Vec Ideal S1x2048 .f32) (X2 : Vec Ideal S1x2000x2048 .bf16)
    (r : Fin 640) (q : Fin 2000) :
    k0_pay1 (F := Ideal) X0 X1 X2 (ix3 (0 : Fin 1) r q)
      = ∑ k : Fin 2048, (X0 (ix2 r k) * X1 (ix2 (0 : Fin 1) k)) * X2 (ix3 (0 : Fin 1) q k) := by
  unfold k0_pay1
  -- the leading unit axis added to the product: entry (0, r, q) is the product's entry (r, q)
  refine (shapeCast_ab_1ab_apply _ shapeCasts_S640x2000_S1x640x2000 (0 : Fin 1) r q).trans ?_
  -- the product at (r, q) is the sum over the taps
  refine (mm_apply _ _ r q).trans ?_
  refine Finset.sum_congr rfl fun k _ => ?_
  -- the right operand: the frames' block with its leading unit axis dropped
  have eR : shapeCast S2000x2048 X2 shapeCasts_S1x2000x2048_S2000x2048 (ix2 q k) = X2 (ix3 (0 : Fin 1) q k) :=
    shapeCast_1ab_ab_apply X2 shapeCasts_S1x2000x2048_S2000x2048 q k
  -- the left operand: the filterbank's entry times the envelope's entry of the same tap (the narrowing is the identity)
  have eB : broadcastTo S640x2048 (shapeCast S1x2048 X1 shapeCasts_S1x2048_S1x2048) broadcasts_S1x2048_S640x2048 (ix2 r k)
      = X1 (ix2 (0 : Fin 1) k) := by
    refine (broadcastTo_1b_ab_apply _ broadcasts_S1x2048_S640x2048 r k).trans ?_
    rw [shapeCast_self]
  refine congrArg₂ (· * ·) ?_ eR
  refine (truncf_apply _ bitsLt_bf16_f32 (ix2 r k)).trans ?_
  refine (mulf_apply X0 _ (ix2 r k)).trans ?_
  exact congrArg (X0 (ix2 r k) * ·) eB

end Cert.KernelIdeal.Hand

end
-- ==== Proof.KiRun.lean ====
/-
  The idealized kernel's run with every array named, at the ideal instance: the body obligation over the exact proof data
  `dats`, and the launch. The filterbank's and the product's windows are cut at the last tile (two of 640 rows lie inside the
  16002-row array), so the obligation speaks of those two buffers on the rows inside the array only. What the body leaves there
  in the product's buffer is the product of the filterbank block AS FETCHED — its rows past the array's end holding words nothing
  names — and row r of a product reads row r of the block only (`pay_apply`): on the rows inside the array it is the product of
  the block filled out with zeros, which is what `dats` names.
-/
import proofs.«175995_j34505767256674_1_alg».proof.Proof.KiBody
import proofs.«175995_j34505767256674_1_alg».proof.Proof.KiDefs
import proofs.«175995_j34505767256674_1_alg».proof.Proof.KiPay
import proofs.«175995_j34505767256674_1_alg».proof.Proof.Gen.KernelIdeal.Points
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-! ## What the body finds -/

/-- The filterbank's buffer, just fetched: the block on the rows inside the array, anything past them. -/
theorem before_0 (c : Dev nD) (t : Fin cfg0.N) (d) :
    (dats m 0 c).before (0 : Fin 4) t d = win0_0.fill (grid0.coords t) d (iblk m c 0 t) := by
  unfold Dat.before; rw [if_pos (fetch0_0 t)]; rfl
/-- The envelope vector's and the frames' buffers hold their blocks, fetched at this point or at an earlier one. -/
theorem before_1 (c : Dev nD) (t : Fin cfg0.N) (d) : (dats m 0 c).before (1 : Fin 4) t d = iblk m c 1 t :=
  before0_1_of m (dats m 0 c) rfl (fun _ => rfl) t d
theorem before_2 (c : Dev nD) (t : Fin cfg0.N) (d) : (dats m 0 c).before (2 : Fin 4) t d = iblk m c 2 t :=
  before0_2_of m (dats m 0 c) rfl (fun _ => rfl) t d
/-- The product's buffer comes back from a write-back (or is fresh): anything. -/
theorem before_3 (c : Dev nD) (t : Fin cfg0.N) (d) : (dats m 0 c).before (3 : Fin 4) t d = d := by
  refine (dats m 0 c).before_out_reset (3 : Fin 4) rfl t ?_ d
  by_cases h0 : t.val = 0
  · exact .inl h0
  · exact .inr ⟨h0, flush0_3 _⟩

/-! ## Rows of a product -/

/-- At every point the filterbank's window moves as many rows as the product's writes back, and all 2048 taps. -/
theorem xsize_facts : ∀ t : Fin cfg0.N, win0_0.xsize (grid0.coords t) 0 = win0_3.xsize (grid0.coords t) 1
    ∧ win0_0.xsize (grid0.coords t) 1 = 2048 :=
  (by decide +kernel : ∀ t : Fin grid0.N, win0_0.xsize (grid0.coords t) 0 = win0_3.xsize (grid0.coords t) 1
    ∧ win0_0.xsize (grid0.coords t) 1 = 2048)

/-- Two filterbank blocks that agree on the rows a point moves give products that agree on the rows it writes back. -/
theorem cut_pay_congr (t : Fin cfg0.N) (X0 X0' : Vec Ideal S640x2048 .f32) (X1 : Vec Ideal S1x2048 .f32) (X2 : Vec Ideal S1x2000x2048 .bf16)
    (h : win0_0.cut (grid0.coords t) X0 = win0_0.cut (grid0.coords t) X0') :
    win0_3.cut (grid0.coords t) (k0_pay1 (F := Ideal) X0 X1 X2) = win0_3.cut (grid0.coords t) (k0_pay1 (F := Ideal) X0' X1 X2) := by
  funext j
  obtain ⟨hx0, hx1⟩ := xsize_facts t
  have hr : (j 1).val < 640 := lt_of_lt_of_le (j 1).isLt (win0_3.xsize_le (grid0.coords t) 1)
  have hq : (j 2).val < 2000 := lt_of_lt_of_le (j 2).isLt (win0_3.xsize_le (grid0.coords t) 2)
  have e : win0_3.xinj (grid0.coords t) j = ix3 (0 : Fin 1) ⟨(j 1).val, hr⟩ ⟨(j 2).val, hq⟩ :=
    funext fun a => match a with
      | ⟨0, _⟩ => Subsingleton.elim (α := Fin 1) _ _
      | ⟨1, _⟩ => rfl
      | ⟨2, _⟩ => rfl
  show k0_pay1 (F := Ideal) X0 X1 X2 (win0_3.xinj (grid0.coords t) j) = k0_pay1 (F := Ideal) X0' X1 X2 (win0_3.xinj (grid0.coords t) j)
  rw [e, pay_apply, pay_apply]
  refine Finset.sum_congr rfl fun k _ => ?_
  -- row (j 1) of the block is among the rows the filterbank's window moves at this point: the two windows are cut alike
  have H : ∀ a : Fin 2, (ix2 (⟨(j 1).val, hr⟩ : Fin 640) k a).val < win0_0.xsize (grid0.coords t) a :=
    Fin.forall_fin_two.mpr ⟨by rw [hx0]; exact (j 1).isLt, by rw [hx1]; exact k.isLt⟩
  have hk := congrFun h (fun a => ⟨(ix2 (⟨(j 1).val, hr⟩ : Fin 640) k a).val, H a⟩)
  have e0 : win0_0.xinj (grid0.coords t) (fun a => ⟨(ix2 (⟨(j 1).val, hr⟩ : Fin 640) k a).val, H a⟩) = ix2 (⟨(j 1).val, hr⟩ : Fin 640) k :=
    funext fun a => Fin.ext rfl
  have hk' : X0 (ix2 (⟨(j 1).val, hr⟩ : Fin 640) k) = X0' (ix2 (⟨(j 1).val, hr⟩ : Fin 640) k) := by
    rw [← e0]; exact hk
  rw [hk']

/-! ## The body obligation and the run -/

theorem body_obligation (c : Dev nD) : BodyObligationLoose (dats m 0 c) (defs₀ (F := Ideal)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2, before_3 m c t d3]
  iapply (sound_body (F := Ideal) c Set.univ (grid0.coords t) (cfg0.slots t 0) (cfg0.slots t 1) (cfg0.slots t 2) (cfg0.slots t 3)
    (win0_0.fill (grid0.coords t) d0 (iblk m c 0 t)) (iblk m c 1 t) (iblk m c 2 t) d3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have hk : win0_0.cut (grid0.coords t) (kblk m c t) = iblk m c 0 t := win0_0.cut_fill _ _ _
  have ho : win0_3.cut (grid0.coords t) (oblk m c t)
      = win0_3.cut (grid0.coords t) (k0_pay1 (F := Ideal) (win0_0.fill (grid0.coords t) d0 (iblk m c 0 t)) (iblk m c 1 t) (iblk m c 2 t)) :=
    cut_pay_congr t _ _ _ _ (by rw [hk]; exact (win0_0.cut_fill _ _ _).symm)
  isplitl [H0]
  · iexists d0
    change _ ⊢ owns (c : Thread nD τ) (stage0_0 (cfg0.slots t 0)) fullShare (win0_0.fill (grid0.coords t) d0 (win0_0.cut (grid0.coords t) (kblk m c t)))
    rw [hk]; try iexact H0
  isplitl [H1]
  · iexact H1
  isplitl [H2]
  · iexact H2
  · iexists (k0_pay1 (F := Ideal) (win0_0.fill (grid0.coords t) d0 (iblk m c 0 t)) (iblk m c 1 t) (iblk m c 2 t))
    change _ ⊢ owns (c : Thread nD τ) (stage0_3 (cfg0.slots t 3)) fullShare (win0_3.fill (grid0.coords t) _ (win0_3.cut (grid0.coords t) (oblk m c t)))
    rw [ho, win0_3.fill_cut]; try iexact H3

/-- Every weakly fair execution of the idealized kernel's program terminates without a fault, every window's array at what the
    proof data compute and every other unscoped buffer at what the slices after the region make of those. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) 0 launch0 (defs₀ (F := Ideal)) 𝒱₀ m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl) (hΦ := fun _ _ => rfl)

end Cert.KernelIdeal.Hand

end
-- ==== Proof.KiHost.lean ====
/-
  The host side of the idealized kernel's program around its one region: what the region finds in the frames' array and in the
  envelope vector's, and what the two slices after it make of the product array.
-/
import proofs.«175995_j34505767256674_1_alg».proof.Proof.KiDefs
import Idealize.ShloMosaic.Lib.StableHlo.Run
import Idealize.ShloMosaic.Lib.Pipeline.Value
import Idealize.ShloMosaic.Lib.ValueLayout
import Idealize.ShloMosaic.Lib.ValueIdxRank1
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.Sem
open Idealize.ShloMosaic.Rounds
open Idealize.ShloMosaic.Pipeline (Dat RDat Cfg Window)

/-- The folded envelope vector read at tap `k`, for any envelope `e`: the cast to one row reads the vector's entry `k`; that
    entry is the product of `e k` over the sample rate with the normalisation, both scalars broadcast; the host's sum from the
    zero word is the plain sum over the vector's indices, re-indexed by its one coordinate. -/
private theorem env_read (e : FVec Ideal S2048 .f32)
    (hb : S_.BroadcastsInDim S2048 (![] : Fin 0 → Fin S2048.rank)) (hr : S2048.ReducesTo [0] S_) (h0 : 0 < S_.numel)
    (hc : S2048.ShapeCasts S1x2048) (k : Fin 2048) :
    shapeCast S1x2048 (mulf (Host.divf (F := Ideal) e (broadcastInDim S2048 ![] hb (constant (F := Ideal) S_ .f32 0x467A0000#32)))
       (broadcastInDim S2048 ![] hb (Host.divf (F := Ideal) (constant (F := Ideal) S_ .f32 0x403504F3#32)
          (Host.divf (F := Ideal) (Host.reduceAdd (F := Ideal) e (constant (F := Ideal) S_ .f32 0x00000000#32) hr h0)
             (constant (F := Ideal) S_ .f32 0x467A0000#32))))) hc (ix2 (0 : Fin 1) k) = Cert.Spec.tap e k := by
  rw [shapeCast_a_1a_apply, mulf_apply]
  rw [broadcastInDim_apply (![] : Fin 0 → Fin S2048.rank) hb _ (ix1 k) (Shape.Idx.first h0) (fun a => a.elim0)]
  unfold Host.divf Host.reduceAdd
  rw [broadcastInDim_apply (![] : Fin 0 → Fin S2048.rank) hb _ (ix1 k) (Shape.Idx.first h0) (fun a => a.elim0)]
  simp only [Ideal.hostDivf_def, Ideal.hostReduceAdd_def, constant_apply]
  rw [Ideal.hostReduceAdd_total hr (fun b => b.elim0), Ideal.ofBits_zero_f32, zero_add, ← Equiv.sum_comp idxEquiv1.symm e]
  rfl

variable (m : (ℓ : Loc nD τ sig) → Buf (Elt Ideal) ℓ)

/-- The region finds the frames of the launch waveform in its third operand's array. -/
theorem V_frames (c : Dev nD) : V m c main_v17 = framesOf (m ((c : Thread nD τ).loc main_arg0)) := by
  dsimp only [Gen.V, Gen.V0]
  simp only [Gen.hostOps0, Gen.hostOps0_1, Gen.hostOps0_2, List.flatten_cons, List.flatten_nil, List.append_nil, List.cons_append,
    List.nil_append]
  after_results_simp
  rfl

/-- And in its second operand's array, at tap k, the envelope's tap over the sample rate times the normalisation. -/
theorem V_env_apply (c : Dev nD) (k : Fin 2048) :
    V m c main_v25 (ix2 (0 : Fin 1) k) = Cert.Spec.tap (m ((c : Thread nD τ).loc main_arg2)) k := by
  dsimp only [Gen.V, Gen.V0]
  simp only [Gen.hostOps0, Gen.hostOps0_1, Gen.hostOps0_2, List.flatten_cons, List.flatten_nil, List.append_nil, List.cons_append,
    List.nil_append]
  after_results_simp
  exact env_read (m ((c : Thread nD τ).loc main_arg2)) _ _ _ _ k

/-- Every frame entry is an entry of the waveform or the padding zero. -/
theorem framesOf_finite (wav : FVec Ideal S2x32000 .f32) (h : ∀ i, ∃ r : ℝ, wav i = (r : EReal)) :
    ∀ j, ∃ r : ℝ, framesOf wav j = (r : EReal) := by
  intro j
  unfold framesOf
  rw [truncf_apply]
  unfold Host.gather pad
  dsimp only
  -- a gathered entry of the padded waveform: inside the waveform's range it is an entry of it, outside the integer zero
  split
  · exact h _
  · exact ⟨((0#32 : BitVec 32).toInt : ℝ), rfl⟩

/-- The two results are the product array's filter rows 0 ‥ 8000 and 8001 ‥ 16001. -/
theorem tail_v27 (c : Dev nD) :
    Pipeline.afterTail₀ cfgs (dats m) 0 (V0 m) [hostOps1] c main_v27
      = extractStridedSlice S2x8001x2000 ![0, 0, 0] ((dats m 0 c).arrAt 3 cfg0.N) Facts₀.slices_S2x16002x2000_S2x8001x2000_0_0_0 := by
  unfold Pipeline.afterTail₀
  show StableHlo.after hostOps1 _ (Proc.devRef .tc main_v27) = _
  after_results
  exact congrArg (fun x => extractStridedSlice S2x8001x2000 ![0, 0, 0] x Facts₀.slices_S2x16002x2000_S2x8001x2000_0_0_0)
    (Pipeline.withArrays_arr spec0 launch0.win.arr_inj c _ _ 3)
theorem tail_v28 (c : Dev nD) :
    Pipeline.afterTail₀ cfgs (dats m) 0 (V0 m) [hostOps1] c main_v28
      = extractStridedSlice S2x8001x2000 ![0, 8001, 0] ((dats m 0 c).arrAt 3 cfg0.N) Facts₀.slices_S2x16002x2000_S2x8001x2000_0_8001_0 := by
  unfold Pipeline.afterTail₀
  show StableHlo.after hostOps1 _ (Proc.devRef .tc main_v28) = _
  after_results
  exact congrArg (fun x => extractStridedSlice S2x8001x2000 ![0, 8001, 0] x Facts₀.slices_S2x16002x2000_S2x8001x2000_0_8001_0)
    (Pipeline.withArrays_arr spec0 launch0.win.arr_inj c _ _ 3)

end Cert.KernelIdeal.Hand

end
-- ==== Proof.KiOut.lean ====
/-
  The product array after the run, as one function of the argument arrays: point (b, f) of the 2 × 26 grid writes back rows
  640·f ‥ 640·f + 639 of batch b (at f = 25 the two rows 16000, 16001 that lie inside the array), each entry the contraction of
  the filterbank's row with the envelope taps and the batch's frame; the 52 blocks cover the array.
-/
import proofs.«175995_j34505767256674_1_alg».proof.Proof.KiDefs
import proofs.«175995_j34505767256674_1_alg».proof.Proof.KiPay
import proofs.«175995_j34505767256674_1_alg».proof.Proof.KiHost
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.Sem
open Idealize.ShloMosaic.Rounds
open Idealize.ShloMosaic.Pipeline (Dat RDat Cfg Window)

variable (m : (ℓ : Loc nD τ sig) → Buf (Elt Ideal) ℓ)

/-- The product of the launch arrays, whole. -/
def prodArr (c : Dev nD) : S2x16002x2000.Idx → EReal := fun i =>
  Cert.Spec.kerOut (framesOf (m ((c : Thread nD τ).loc main_arg0))) (m ((c : Thread nD τ).loc main_arg1)) (m ((c : Thread nD τ).loc main_arg2))
    ⟨(i 0).val, (i 0).isLt⟩ ⟨(i 1).val, (i 1).isLt⟩ ⟨(i 2).val, (i 2).isLt⟩

/-! ## The index maps and the cuts, decided over the grid -/

/-- The filterbank's block index is the product's on the row axis, the frames' is the product's on the batch axis, and every
    other block index is zero; the product's block indices are a batch and one of the 26 row tiles. -/
private theorem index_facts : ∀ t : Fin cfg0.N,
    win0_0.index t (0 : Fin 2) = win0_3.index t (1 : Fin 3) ∧ win0_0.index t (1 : Fin 2) = 0
    ∧ win0_1.index t (0 : Fin 2) = 0 ∧ win0_1.index t (1 : Fin 2) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) < 2 ∧ win0_3.index t (1 : Fin 3) < 26 :=
  (by decide +kernel : ∀ t : Fin grid0.N,
    win0_0.index t (0 : Fin 2) = win0_3.index t (1 : Fin 3) ∧ win0_0.index t (1 : Fin 2) = 0
    ∧ win0_1.index t (0 : Fin 2) = 0 ∧ win0_1.index t (1 : Fin 2) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) < 2 ∧ win0_3.index t (1 : Fin 3) < 26)

/-- The filterbank's window moves as many rows as the product's writes back, and all 2048 taps; the product's block is one
    batch and all 2000 frames, and its rows are 640 at the first 25 row tiles and 2 at the last. -/
private theorem cut_facts : ∀ t : Fin cfg0.N,
    win0_0.xsize (grid0.coords t) (0 : Fin 2) = win0_3.xsize (grid0.coords t) (1 : Fin 3)
    ∧ win0_0.xsize (grid0.coords t) (1 : Fin 2) = 2048
    ∧ win0_3.xsize (grid0.coords t) (0 : Fin 3) = 1 ∧ win0_3.xsize (grid0.coords t) (2 : Fin 3) = 2000
    ∧ (win0_3.index t (1 : Fin 3) < 25 → win0_3.xsize (grid0.coords t) (1 : Fin 3) = 640)
    ∧ (win0_3.index t (1 : Fin 3) = 25 → win0_3.xsize (grid0.coords t) (1 : Fin 3) = 2) :=
  (by decide +kernel : ∀ t : Fin grid0.N,
    win0_0.xsize (grid0.coords t) (0 : Fin 2) = win0_3.xsize (grid0.coords t) (1 : Fin 3)
    ∧ win0_0.xsize (grid0.coords t) (1 : Fin 2) = 2048
    ∧ win0_3.xsize (grid0.coords t) (0 : Fin 3) = 1 ∧ win0_3.xsize (grid0.coords t) (2 : Fin 3) = 2000
    ∧ (win0_3.index t (1 : Fin 3) < 25 → win0_3.xsize (grid0.coords t) (1 : Fin 3) = 640)
    ∧ (win0_3.index t (1 : Fin 3) = 25 → win0_3.xsize (grid0.coords t) (1 : Fin 3) = 2))

/-- Every batch and row tile is some point's. -/
private theorem index_onto : ∀ (b : Fin 2) (f : Fin 26), ∃ t : Fin cfg0.N,
    win0_3.index t (0 : Fin 3) = b.val ∧ win0_3.index t (1 : Fin 3) = f.val :=
  (by decide +kernel : ∀ (b : Fin 2) (f : Fin 26), ∃ t : Fin grid0.N,
    win0_3.index t (0 : Fin 3) = b.val ∧ win0_3.index t (1 : Fin 3) = f.val)

/-! ## The three blocks, read where they sit in their arrays -/

/-- Row r of the filterbank's block at a point, r among the rows the point moves, is row 640·f + r of the launch filterbank
    (f the point's row tile). -/
private theorem kblk_apply (c : Dev nD) (t : Fin cfg0.N) (r : Fin 640) (k : Fin 2048) (f : Fin 16002)
    (hr : r.val < win0_0.xsize (grid0.coords t) (0 : Fin 2))
    (hf : f.val = win0_0.index t (0 : Fin 2) * 640 + r.val) :
    kblk m c t (ix2 r k) = m ((c : Thread nD τ).loc main_arg1) (ix2 f k) := by
  obtain ⟨-, hi1, -⟩ := index_facts t
  obtain ⟨-, hx1, -⟩ := cut_facts t
  have H : ∀ a : Fin 2, (ix2 r k a).val < win0_0.xsize (grid0.coords t) a :=
    Fin.forall_fin_two.mpr ⟨hr, by rw [hx1]; exact k.isLt⟩
  have e0 : win0_0.xinj (grid0.coords t) (fun a => ⟨(ix2 r k a).val, H a⟩) = ix2 r k := funext fun a => Fin.ext rfl
  unfold kblk
  rw [← e0, Window.fill_xinj]
  unfold Gen.iblk
  rw [View.read_apply]
  show V m c main_arg1 _ = _
  rw [V_main_arg1]
  refine congrArg _ (funext fun a => Fin.ext ?_)
  match a with
  | ⟨0, _⟩ => show win0_0.index t (0 : Fin 2) * 640 + 1 * r.val = f.val; omega
  | ⟨1, _⟩ => show win0_0.index t (1 : Fin 2) * 2048 + 1 * k.val = k.val; omega

/-- The envelope vector's block is the whole folded vector: tap k of it is the envelope's tap over the sample rate times
    the normalisation. -/
private theorem env_blk_apply (c : Dev nD) (t : Fin cfg0.N) (k : Fin 2048) :
    (iblk m c 1 t : Vec Ideal S1x2048 .f32) (ix2 (0 : Fin 1) k) = Cert.Spec.tap (m ((c : Thread nD τ).loc main_arg2)) k := by
  obtain ⟨-, -, hi0, hi1, -⟩ := index_facts t
  rw [← V_env_apply m c k]
  unfold Gen.iblk
  rw [View.read_apply]
  show V m c main_v25 _ = _
  refine congrArg _ (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

/-- The frames' block at a point is the point's batch of the frames of the launch waveform. -/
private theorem frames_blk_apply (c : Dev nD) (t : Fin cfg0.N) (q : Fin 2000) (k : Fin 2048) (b : Fin 2)
    (hb : b.val = win0_2.index t (0 : Fin 3)) :
    (iblk m c 2 t : Vec Ideal S1x2000x2048 .bf16) (ix3 (0 : Fin 1) q k)
      = framesOf (m ((c : Thread nD τ).loc main_arg0)) (ix3 b q k) := by
  obtain ⟨-, -, -, -, -, hi1, hi2, -⟩ := index_facts t
  rw [← V_frames m c]
  unfold Gen.iblk
  rw [View.read_apply]
  show V m c main_v17 _ = _
  refine congrArg _ (funext fun a => Fin.ext ?_)
  match a with
  | ⟨0, _⟩ => show win0_2.index t (0 : Fin 3) * 1 + 1 * 0 = b.val; omega
  | ⟨1, _⟩ => show win0_2.index t (1 : Fin 3) * 2000 + 1 * q.val = q.val; omega
  | ⟨2, _⟩ => show win0_2.index t (2 : Fin 3) * 2048 + 1 * k.val = k.val; omega

/-! ## What a point writes back -/

/-- Entry (r, q) of what the body leaves at a point, r among the rows the point writes back, is the product array's entry
    at the point's batch, row 640·f + r and frame q. -/
private theorem oblk_apply (c : Dev nD) (t : Fin cfg0.N) (r : Fin 640) (q : Fin 2000) (i : S2x16002x2000.Idx)
    (hr : r.val < win0_3.xsize (grid0.coords t) (1 : Fin 3))
    (h0 : (i 0).val = win0_3.index t (0 : Fin 3)) (h1 : (i 1).val = win0_3.index t (1 : Fin 3) * 640 + r.val)
    (h2 : (i 2).val = q.val) :
    oblk m c t (ix3 (0 : Fin 1) r q) = prodArr m c i := by
  obtain ⟨hi0, -, -, -, hi2, -⟩ := index_facts t
  obtain ⟨hx0, -⟩ := cut_facts t
  unfold oblk prodArr Cert.Spec.kerOut
  rw [pay_apply]
  refine Finset.sum_congr rfl fun k _ => ?_
  rw [kblk_apply m c t r k ⟨(i 1).val, (i 1).isLt⟩ (by rw [hx0]; exact hr) (by rw [hi0]; exact h1),
    env_blk_apply m c t k, frames_blk_apply m c t q k ⟨(i 0).val, (i 0).isLt⟩ (by rw [hi2]; exact h0)]
  have eq : (⟨(i 2).val, (i 2).isLt⟩ : Fin 2000) = q := Fin.ext h2
  rw [eq]

/-- What point t writes back is its block of the product array. -/
private theorem flushed_eq (c : Dev nD) (t : Fin cfg0.N) :
    (dats m 0 c).flushed 3 t = ((cfg0.win 3).blk t).view.read (Elt Ideal) (prodArr m c) := by
  funext j
  obtain ⟨-, -, -, -, -, -, -, hi2, -⟩ := index_facts t
  obtain ⟨-, -, hx0, hx2, -⟩ := cut_facts t
  have hr : (j 1).val < 640 := lt_of_lt_of_le (j 1).isLt (win0_3.xsize_le (grid0.coords t) 1)
  have hq : (j 2).val < 2000 := lt_of_lt_of_le (j 2).isLt (win0_3.xsize_le (grid0.coords t) 2)
  have hb : (j 0).val < win0_3.xsize (grid0.coords t) (0 : Fin 3) := (j 0).isLt
  have e : win0_3.xinj (grid0.coords t) j = ix3 (0 : Fin 1) ⟨(j 1).val, hr⟩ ⟨(j 2).val, hq⟩ :=
    funext fun a => match a with
      | ⟨0, _⟩ => Subsingleton.elim (α := Fin 1) _ _
      | ⟨1, _⟩ => rfl
      | ⟨2, _⟩ => rfl
  show oblk m c t (win0_3.xinj (grid0.coords t) j) = prodArr m c (((cfg0.win 3).blk t).view.emb j)
  rw [e]
  refine oblk_apply m c t ⟨(j 1).val, hr⟩ ⟨(j 2).val, hq⟩ _ (j 1).isLt ?_ ?_ ?_
  · show win0_3.index t (0 : Fin 3) * 1 + 1 * (j 0).val = win0_3.index t (0 : Fin 3); omega
  · show win0_3.index t (1 : Fin 3) * 640 + 1 * (j 1).val = win0_3.index t (1 : Fin 3) * 640 + (j 1).val; omega
  · show win0_3.index t (2 : Fin 3) * 2000 + 1 * (j 2).val = (j 2).val; omega

/-! ## The blocks cover the array -/

/-- Row n of batch b lies in the block of the point at batch b and row tile n / 640. -/
private theorem blocks_cover (i : S2x16002x2000.Idx) :
    ∃ t : Fin cfg0.N, (cfg0.win 3).flush t = true ∧ i ∈ ((cfg0.win 3).blk t).view.set := by
  have h0 : (i 0).val < 2 := (i 0).isLt
  have h1 : (i 1).val < 16002 := (i 1).isLt
  have h2 : (i 2).val < 2000 := (i 2).isLt
  obtain ⟨t, ht0, ht1⟩ := index_onto ⟨(i 0).val, h0⟩ ⟨(i 1).val / 640, by omega⟩
  have ht0' : win0_3.index t (0 : Fin 3) = (i 0).val := ht0
  have ht1' : win0_3.index t (1 : Fin 3) = (i 1).val / 640 := ht1
  obtain ⟨-, -, -, -, -, -, -, hi2, -⟩ := index_facts t
  obtain ⟨-, -, hx0, hx2, hlo, hhi⟩ := cut_facts t
  refine ⟨t, flush0_3 t, ?_⟩
  show i ∈ ((View.whole main_v26).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + win0_3.xsize (grid0.coords t) (0 : Fin 3)
    rw [hx0]; omega
  | ⟨1, _⟩ =>
    show win0_3.index t (1 : Fin 3) * 640 ≤ (i 1).val ∧ (i 1).val < win0_3.index t (1 : Fin 3) * 640 + win0_3.xsize (grid0.coords t) (1 : Fin 3)
    by_cases hf : win0_3.index t (1 : Fin 3) < 25
    · rw [hlo hf]; omega
    · rw [hhi (by omega)]; omega
  | ⟨2, _⟩ =>
    show win0_3.index t (2 : Fin 3) * 2000 ≤ (i 2).val ∧ (i 2).val < win0_3.index t (2 : Fin 3) * 2000 + win0_3.xsize (grid0.coords t) (2 : Fin 3)
    rw [hx2]; omega

/-- The product's array ends holding it. -/
theorem out_final (c : Dev nD) : (dats m 0 c).arrAt 3 cfg0.N = prodArr m c :=
  (dats m 0 c).arrAt_eq_of_cover (w := 3) (G := prodArr m c) (fun t _ => flushed_eq m c t) blocks_cover

end Cert.KernelIdeal.Hand

end
-- ==== Proof.KiValue.lean ====
/-
  The idealized kernel's run read at its two results: the sine and the cosine halves of the product array, and the three
  argument arrays unchanged.
-/
import proofs.«175995_j34505767256674_1_alg».proof.Proof.KiRun
import proofs.«175995_j34505767256674_1_alg».proof.Proof.KiOut
import proofs.«175995_j34505767256674_1_alg».proof.Proof.KiHost
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.Sem
open Idealize.ShloMosaic.Rounds
open Idealize.ShloMosaic.Pipeline (Dat RDat Cfg Window)

variable (m : (ℓ : Loc nD τ sig) → Buf (Elt Ideal) ℓ) (ρ : Dev nD → PrngReg)

theorem run_value : θ_run defs (onTc (τ := τ) (main (F := Ideal))) ⟨m, fun _ => 0, ρ⟩ (fun r => ∀ c : Dev nD,
      r.2.mem ((c.tc : Thread nD τ).loc main_v27)
          = Cert.Spec.resLo (Cert.Spec.kerOut (framesOf (m ((c.tc : Thread nD τ).loc main_arg0)))
              (m ((c.tc : Thread nD τ).loc main_arg1)) (m ((c.tc : Thread nD τ).loc main_arg2)))
      ∧ r.2.mem ((c.tc : Thread nD τ).loc main_v28)
          = Cert.Spec.resHi (Cert.Spec.kerOut (framesOf (m ((c.tc : Thread nD τ).loc main_arg0)))
              (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  -- the two results: the slices of the product array, which ends holding the product of the launch arrays
  have h27 := ((h c).2 main_v27 (Pipeline.mem_restRefs_of main_v27 (by decide) (by decide))).trans (tail_v27 m c)
  have h28 := ((h c).2 main_v28 (Pipeline.mem_restRefs_of main_v28 (by decide) (by decide))).trans (tail_v28 m c)
  rw [out_final] at h27 h28
  refine ⟨?_, ?_,
    ((h c).2 main_arg0 (Pipeline.mem_restRefs_of main_arg0 (by decide) (by decide))).trans (W_main_arg0 m (dats m) c),
    ((h c).1 0).trans (((dats m 0 c).arrAt_in 0 rfl _).trans (V_main_arg1 m c)),
    ((h c).2 main_arg2 (Pipeline.mem_restRefs_of main_arg2 (by decide) (by decide))).trans (W_main_arg2 m (dats m) c)⟩
  · -- filter rows 0 ‥ 8000: the slice at (b, f, t) reads the product array at (b, f, t)
    rw [h27]
    funext i
    obtain ⟨b, f, t, rfl⟩ : ∃ b f t, i = ix3 b f t := ⟨_, _, _, eq_ix3 i⟩
    have hf : f.val < 16002 := lt_trans f.isLt (by norm_num)
    rw [slice3_axis1_apply 0 (prodArr m c) Facts₀.slices_S2x16002x2000_S2x8001x2000_0_0_0 b f t ⟨f.val, hf⟩ (Nat.zero_add _).symm]
    rfl
  · -- filter rows 8001 ‥ 16001: the slice at (b, f, t) reads the product array at (b, f + 8001, t)
    rw [h28]
    funext i
    obtain ⟨b, f, t, rfl⟩ : ∃ b f t, i = ix3 b f t := ⟨_, _, _, eq_ix3 i⟩
    have hf : f.val + 8001 < 16002 := by have := f.isLt; omega
    rw [slice3_axis1_apply 8001 (prodArr m c) Facts₀.slices_S2x16002x2000_S2x8001x2000_0_8001_0 b f t ⟨f.val + 8001, hf⟩ (Nat.add_comm _ _)]
    rfl

end Cert.KernelIdeal.Hand

end
-- ==== Proof.RefValue.lean ====
/-
  The idealized reference's run read back: its two results as functions of its argument arrays.

  The reference weights the filterbank by the envelope, `(K f k · eₖ) / sr`, contracts it with the frames over the taps,
  transposes the product to (batch, filter row, frame), cuts it into the rows 0 ‥ 8000 and 8001 ‥ 16001, and multiplies
  each half by the normalisation `√8 / (∑ e / sr)`. Read at an index, each half is the specification's scaled contraction.
  The frames array is not opened: both programs build it by the same pad, index arithmetic and gather.
-/
import proofs.«175995_j34505767256674_1_alg».proof.Proof.Gen.ReferenceIdeal.Run
import proofs.«175995_j34505767256674_1_alg».proof.Proof.Gen.ReferenceIdeal.Read
import proofs.«175995_j34505767256674_1_alg».proof.Proof.KiDefs
import Idealize.ShloMosaic.PureOps.Ideal.Laws
import Idealize.ShloMosaic.Lib.Pipeline.Value
import Idealize.ShloMosaic.Lib.ValueLayout
import Idealize.ShloMosaic.Lib.ValueIdxRank1

noncomputable section

namespace Cert.ReferenceIdeal.Hand

open Cert.ReferenceIdeal
open Idealize.ShloMosaic Idealize.ShloMosaic.TcCoe Idealize.ShloMosaic.ValueIdx Idealize.SL.Sem

/-- The gather of the padded waveform at the start indices `16·t + k` is the frames array: the two programs build it by the
    same pad, the same index arithmetic and the same gather, and narrowing an extended real changes nothing. -/
theorem frames_eq (wav : (⟨S2x32000, .f32⟩ : BufTy).Contents (Elt Ideal)) :
    (Read.val_main_v21 (F := Ideal) wav : (⟨3, ![2, 2000, 2048]⟩ : Shape).Idx → EReal)
      = Cert.KernelIdeal.Hand.framesOf wav := by
  unfold Cert.KernelIdeal.Hand.framesOf Cert.KernelIdeal.Hand.startIdx Read.val_main_v21 Read.val_main_v5 Read.val_main_call0_v0 Read.val_main_c
    Read.val_main_v20 Read.val_main_v19 Read.val_main_v16 Read.val_main_v18 Read.val_main_v17 Read.val_main_c_2 Read.val_main_v15 Read.val_main_c_1
    Read.val_main_v14 Read.val_main_v13 Read.val_main_v12 Read.val_main_v11 Read.val_main_v10 Read.val_main_v9 Read.val_main_v8 Read.val_main_c_0
    Read.val_main_v7 Read.val_main_v6
  rfl

/-- The envelope-weighted filterbank entry `(K f k · eₖ) / sr`. -/
theorem weighted_apply (K : (⟨S16002x2048, .f32⟩ : BufTy).Contents (Elt Ideal)) (e : (⟨S2048, .f32⟩ : BufTy).Contents (Elt Ideal))
    (f : Fin 16002) (k : Fin 2048) :
    Read.val_main_v4 (F := Ideal) K e (ix2 f k) = Ideal.div (K (ix2 f k) * e (ix1 k)) Cert.Spec.srW := by
  have h0 : Read.idx_main_v0 (Read.idx_main_v1 (ix2 f k)) = ix1 k :=
    funext fun a => Fin.ext (by match a with | ⟨0, _⟩ => rfl)
  rw [Read.val_main_v4_apply, Read.val_main_v2_apply, Read.val_main_v1_apply, Read.val_main_v0_apply, Read.val_main_v3_apply,
    Read.val_main_cst_apply, h0]
  rfl

/-- The contraction over the taps at filter row `f`, batch `b`, frame `t`. -/
theorem contraction_apply (wav : (⟨S2x32000, .f32⟩ : BufTy).Contents (Elt Ideal)) (K : (⟨S16002x2048, .f32⟩ : BufTy).Contents (Elt Ideal))
    (e : (⟨S2048, .f32⟩ : BufTy).Contents (Elt Ideal)) (f : Fin 16002) (b : Fin 2) (t : Fin 2000) :
    Read.val_main_v22 (F := Ideal) wav K e (ix3 f b t)
      = ∑ k : Fin 2048, Ideal.div (K (ix2 f k) * e (ix1 k)) Cert.Spec.srW * Cert.KernelIdeal.Hand.framesOf wav (ix3 b t k) := by
  rw [Read.val_main_v22_apply]
  refine Finset.sum_congr rfl fun k _ => ?_
  have hl : Read.lidx_main_v22 (ix3 f b t) k = ix2 f k :=
    funext fun a => Fin.ext (by match a with | ⟨0, _⟩ => rfl | ⟨1, _⟩ => rfl)
  have hr : Read.ridx_main_v22 (ix3 f b t) k = ix3 b t k :=
    funext fun a => Fin.ext (by match a with | ⟨0, _⟩ => rfl | ⟨1, _⟩ => rfl | ⟨2, _⟩ => rfl)
  rw [hl, hr, weighted_apply, frames_eq]

/-- The normalisation `√8 / (∑ e / sr)`: the sum starts from the zero word, which is the real number zero. -/
theorem scale_apply (e : (⟨S2048, .f32⟩ : BufTy).Contents (Elt Ideal)) (j : S_.Idx) :
    Read.val_main_v28 (F := Ideal) e j = Cert.Spec.scale e := by
  have hs : ∑ i : S2048.Idx, e i = ∑ k : Fin 2048, e (ix1 k) :=
    (Equiv.sum_comp (idxEquiv1 (n := 2048)).symm e).symm
  rw [Read.val_main_v28_apply, Read.val_main_v27_apply, Read.val_main_v26_apply, Read.val_main_cst_5_apply, Read.val_main_cst_4_apply,
    Read.val_main_cst_3_apply]
  show Ideal.div (Ideal.ofBits .f32 0x403504F3#32)
      (Ideal.div (Ideal.ofBits .f32 0x00000000#32 + ∑ i : S2048.Idx, e i) (Ideal.ofBits .f32 0x467A0000#32)) = _
  rw [Ideal.ofBits_zero_f32, zero_add, hs]
  rfl

/-- The sine half: the scaled contraction at filter rows 0 ‥ 8000. -/
theorem ref_lo (wav : (⟨S2x32000, .f32⟩ : BufTy).Contents (Elt Ideal)) (K : (⟨S16002x2048, .f32⟩ : BufTy).Contents (Elt Ideal))
    (e : (⟨S2048, .f32⟩ : BufTy).Contents (Elt Ideal)) :
    Read.val_main_v30 (F := Ideal) wav K e = Cert.Spec.resLo (Cert.Spec.refOut (Cert.KernelIdeal.Hand.framesOf wav) K e) := by
  funext i
  obtain ⟨b, f, t, rfl⟩ : ∃ (b : Fin 2) (f : Fin 8001) (t : Fin 2000), i = ix3 b f t := ⟨i 0, i 1, i 2, eq_ix3 i⟩
  have hi : Read.idx_main_v23 (Read.idx_main_v24 (ix3 b f t)) = ix3 (⟨f.val, by omega⟩ : Fin 16002) b t :=
    funext fun a => Fin.ext (by match a with | ⟨0, _⟩ => rfl | ⟨1, _⟩ => rfl | ⟨2, _⟩ => rfl)
  rw [Read.val_main_v30_apply, Read.val_main_v24_apply, Read.val_main_v23_apply, Read.val_main_v29_apply, scale_apply, hi, contraction_apply]
  rfl

/-- The cosine half: the scaled contraction at filter rows 8001 ‥ 16001. -/
theorem ref_hi (wav : (⟨S2x32000, .f32⟩ : BufTy).Contents (Elt Ideal)) (K : (⟨S16002x2048, .f32⟩ : BufTy).Contents (Elt Ideal))
    (e : (⟨S2048, .f32⟩ : BufTy).Contents (Elt Ideal)) :
    Read.val_main_v32 (F := Ideal) wav K e = Cert.Spec.resHi (Cert.Spec.refOut (Cert.KernelIdeal.Hand.framesOf wav) K e) := by
  funext i
  obtain ⟨b, f, t, rfl⟩ : ∃ (b : Fin 2) (f : Fin 8001) (t : Fin 2000), i = ix3 b f t := ⟨i 0, i 1, i 2, eq_ix3 i⟩
  have hi : Read.idx_main_v23 (Read.idx_main_v25 (ix3 b f t)) = ix3 (⟨f.val + 8001, by omega⟩ : Fin 16002) b t :=
    funext fun a => Fin.ext (by match a with | ⟨0, _⟩ => exact Nat.add_comm 8001 f.val | ⟨1, _⟩ => rfl | ⟨2, _⟩ => rfl)
  rw [Read.val_main_v32_apply, Read.val_main_v25_apply, Read.val_main_v23_apply, Read.val_main_v31_apply, scale_apply, hi, contraction_apply]
  rfl

theorem run_value (m' : (ℓ : Loc nD τ sig) → Buf (Elt Ideal) ℓ) (ρ' : Dev nD → PrngReg) :
    θ_run (Cert.ReferenceIdeal.defs (F := Ideal)) (onTc (τ := τ) (Cert.ReferenceIdeal.main (F := Ideal))) ⟨m', fun _ => 0, ρ'⟩ (fun r => ∀ c : Dev nD,
      r.2.mem ((c.tc : Thread nD τ).loc main_v30)
          = Cert.Spec.resLo (Cert.Spec.refOut (Cert.KernelIdeal.Hand.framesOf (m' ((c.tc : Thread nD τ).loc main_arg0)))
              (m' ((c.tc : Thread nD τ).loc main_arg1)) (m' ((c.tc : Thread nD τ).loc main_arg2)))
      ∧ r.2.mem ((c.tc : Thread nD τ).loc main_v32)
          = Cert.Spec.resHi (Cert.Spec.refOut (Cert.KernelIdeal.Hand.framesOf (m' ((c.tc : Thread nD τ).loc main_arg0)))
              (m' ((c.tc : Thread nD τ).loc main_arg1)) (m' ((c.tc : Thread nD τ).loc main_arg2)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run (Cert.ReferenceIdeal.defs (F := Ideal)) _ _).mono
    (fun _ h c => ⟨(h c).1.trans ((Read.val_main_v30_eq _ _ _).trans (ref_lo _ _ _)),
      (h c).2.1.trans ((Read.val_main_v32_eq _ _ _).trans (ref_hi _ _ _)), (h c).2.2⟩)
    (Cert.ReferenceIdeal.Value.run (F := Ideal) m' ρ')

end Cert.ReferenceIdeal.Hand

end
-- ==== Proof.SpecLaw.lean ====
/-
  The law joining the two sides: over finite entries and a nonzero envelope sum the normalisation is a real number, and a real
  factor moves across a finite sum of reals.
-/
import proofs.«175995_j34505767256674_1_alg».proof.Proof.Spec

noncomputable section

namespace Cert.Spec

open Idealize.ShloMosaic Idealize.ShloMosaic.ValueIdx

/-- The sample rate's word denotes the real number 16000: sign 0, exponent 140, significand 2²³ + 7995392 = 16384000, and
    16384000 · 2⁻¹⁰ = 16000. -/
theorem srW_eq : srW = ((16000 : ℝ) : EReal) := by
  unfold srW
  simp [Ideal.ofBits, Ideal.ieee, -EReal.coe_mul]; norm_num

/-- The word of √8 is a positive normal, hence denotes a real number. -/
theorem rt8_real : ∃ r : ℝ, rt8 = (r : EReal) := by
  unfold rt8
  simp [Ideal.ofBits, Ideal.ieee, -EReal.coe_mul]

/-- The coercion of a finite sum of reals is the sum of the coercions. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem kerOut_eq_refOut (fr : (⟨3, ![2, 2000, 2048]⟩ : Shape).Idx → EReal) (K : (⟨2, ![16002, 2048]⟩ : Shape).Idx → EReal)
    (e : (⟨1, ![2048]⟩ : Shape).Idx → EReal)
    (hfr : ∀ i, ∃ r : ℝ, fr i = (r : EReal)) (hK : ∀ i, ∃ r : ℝ, K i = (r : EReal)) (he : ∀ i, ∃ r : ℝ, e i = (r : EReal))
    (hs : envSum e ≠ 0) (b : Fin 2) (f : Fin 16002) (t : Fin 2000) :
    kerOut fr K e b f t = refOut fr K e b f t := by
  -- every entry is a real number
  choose frR hfrR using hfr
  choose KR hKR using hK
  choose eR heR using he
  obtain ⟨r8, hr8⟩ := rt8_real
  -- the envelope's sum is a nonzero real S
  have hS : envSum e = ((∑ k : Fin 2048, eR (ix1 k) : ℝ) : EReal) := by
    unfold envSum
    rw [coe_sum]
    exact Finset.sum_congr rfl (fun k _ => heR _)
  have hS0 : (∑ k : Fin 2048, eR (ix1 k) : ℝ) ≠ 0 := by
    intro h
    apply hs
    rw [hS, h, EReal.coe_zero]
  have h16 : (16000 : ℝ) ≠ 0 := by norm_num
  -- so the normalisation is the real number √8 / (S / 16000)
  have hq : (∑ k : Fin 2048, eR (ix1 k) : ℝ) * (1 / 16000 : ℝ) ≠ 0 := mul_ne_zero hS0 (by norm_num)
  obtain ⟨c, hc⟩ : ∃ c : ℝ, scale e = (c : EReal) := by
    refine ⟨r8 * (1 / ((∑ k : Fin 2048, eR (ix1 k) : ℝ) * (1 / 16000 : ℝ))), ?_⟩
    unfold scale
    rw [hS, srW_eq, hr8, Ideal.div_coe h16, ← EReal.coe_mul, Ideal.div_coe hq, ← EReal.coe_mul]
  -- both sides are coercions of real sums; a real factor moves across a finite sum
  unfold kerOut refOut tap
  rw [hc, srW_eq]
  simp only [hfrR, hKR, heR, Ideal.div_coe h16, ← EReal.coe_mul]
  rw [← coe_sum, ← coe_sum, ← EReal.coe_mul]
  congr 1
  rw [Finset.sum_mul]
  exact Finset.sum_congr rfl (fun k _ => by ring)

end Cert.Spec

end
-- ==== Proof.PreFacts.lean ====
/-
  What the precondition says of the inputs at the ideal instance: every entry of the three arrays is a real number, and the
  envelope's entries do not sum to zero.
-/
import proofs.«175995_j34505767256674_1_alg».proof.Pre_finite_inputs
import proofs.«175995_j34505767256674_1_alg».proof.Proof.Gen.Pre_finite_inputs
import proofs.«175995_j34505767256674_1_alg».proof.Proof.Spec
import Idealize.ShloMosaic.Lib.ReduceAll
import Idealize.ShloMosaic.Lib.ValueIdxRank1
import Idealize.ShloMosaic.PureOps.Ideal.Laws

noncomputable section

namespace Cert.Hand

open Idealize.ShloMosaic Idealize.ShloMosaic.ValueIdx Cert.Pre_finite_inputs

/-- The rank-0 shape has one index. -/
private instance subsingleton_scalar_idx : Subsingleton S_.Idx := ⟨fun a b => funext fun d => d.elim0⟩

/-- The word of +∞ denotes the top element. -/
private theorem ofBits_inf : Ideal.ofBits .f32 0x7F800000#32 = (⊤ : EReal) := by simp [Ideal.ofBits, Ideal.ieee]

/-- An extended real whose absolute value max x (−x) lies strictly below +∞ is neither infinity, hence a real number. -/
private theorem real_of_abs_lt_inf (x : EReal)
    (hx : Ideal.cmp .olt (max x (-x)) (Ideal.ofBits .f32 0x7F800000#32) = 1#1) : ∃ r : ℝ, x = (r : EReal) := by
  rw [ofBits_inf] at hx
  unfold Ideal.cmp at hx
  induction x using EReal.rec with
  | bot => simp at hx
  | coe r => exact ⟨r, rfl⟩
  | top => simp at hx

/-- The conjunction over all entries of |x| < +∞ being true, every entry of x is a real number. -/
private theorem all_real {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant S_ .f32 0x7F800000#32)))
          (constantI S_ 1 1#1) hr hu ix0 = 1#1) :
    ∀ i, ∃ r : ℝ, x i = (r : EReal) := fun i =>
  real_of_abs_lt_inf (x i) (Host.reduce_andi_all _ _ hr hu ix0 h i)

theorem pre_facts (wav : FVec Ideal S2x32000 .f32) (K : FVec Ideal S16002x2048 .f32) (e : FVec Ideal S2048 .f32)
    (h : Cert.Pre_finite_inputs.fn (F := Ideal) wav K e = fun _ => 1#1) :
    (∀ i, ∃ r : ℝ, wav i = (r : EReal)) ∧ (∀ i, ∃ r : ℝ, K i = (r : EReal)) ∧ (∀ i, ∃ r : ℝ, e i = (r : EReal))
      ∧ Cert.Spec.envSum e ≠ 0 := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨all_real wav _ _ _ h1, all_real K _ _ _ h2, all_real e _ _ _ h3, ?_⟩
  -- the envelope's sum from the zero initial value differs from zero
  have h4' : Ideal.cmp .une (Ideal.hostReduceAdd Facts.reducesTo_S2048_S_d0 e (Ideal.ofBits .f32 0x00000000#32) ix0)
      (Ideal.ofBits .f32 0x00000000#32) = 1#1 := h4
  rw [Ideal.hostReduceAdd_total _ (fun b => b.elim0), Ideal.ofBits_zero_f32, zero_add] at h4'
  unfold Cert.Spec.envSum
  rw [show (∑ k : Fin 2048, e (ix1 k)) = ∑ i : S2048.Idx, e i from Equiv.sum_comp idxEquiv1.symm (fun i => e i)]
  intro hz
  rw [hz] at h4'
  simp [Ideal.cmp] at h4'

end Cert.Hand

end
-- ==== Proof.lean ====
/-
  The certificate's claims, assembled.

  The two programs compute, at batch b, filter row f and frame t, a contraction over the 2048 taps of the filterbank's row, the
  envelope and the frame of the zero-padded waveform; with σ = √8 / ((∑ₖ eₖ) / 16000) the kernel weighs each tap by
  (eₖ / 16000) · σ before contracting and the reference multiplies the contraction of (K f k · eₖ) / 16000 by σ afterwards. The
  precondition makes every entry of the three inputs a real number and the envelope's sum nonzero — where the sum is zero the
  reference itself divides by zero —, so σ is a real number and the two agree by distributivity (`Cert.Spec.kerOut_eq_refOut`).
  Both kernel programs' frames come from a run that says nothing of the staging buffers' contents; the reference's frame is its
  value run with the results dropped. The ideal pass rewrote nothing, so `preserves` has nothing to state.
-/
import proofs.«175995_j34505767256674_1_alg».proof.Defs
import proofs.«175995_j34505767256674_1_alg».proof.Proof.KFrame
import proofs.«175995_j34505767256674_1_alg».proof.Proof.KiFrame
import proofs.«175995_j34505767256674_1_alg».proof.Proof.KiValue
import proofs.«175995_j34505767256674_1_alg».proof.Proof.RefValue
import proofs.«175995_j34505767256674_1_alg».proof.Proof.SpecLaw
import proofs.«175995_j34505767256674_1_alg».proof.Proof.PreFacts
import proofs.«175995_j34505767256674_1_alg».proof.Proof.Gen.Kernel
import proofs.«175995_j34505767256674_1_alg».proof.Proof.Gen.KernelIdeal
import proofs.«175995_j34505767256674_1_alg».proof.Proof.Gen.ReferenceIdeal
import proofs.«175995_j34505767256674_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame_post (F := Bits) m ρ

theorem frame_ki : Cert.frame_KernelIdeal := fun m ρ _ => Cert.KernelIdeal.Hand.frame_post (F := Ideal) m ρ

theorem frame_ri : Cert.frame_ReferenceIdeal := fun m ρ _ =>
  (θ_run Cert.ReferenceIdeal.defs _ _).mono (fun _ h c => (h c).2.2) (Cert.ReferenceIdeal.Hand.run_value m ρ)

/-- Both runs end, the kernel's results at the two halves of its product array and the reference's at the two halves of its
    own; under the precondition the two product arrays are one (`kerOut_eq_refOut`, entry by entry). -/
theorem algebraic : Cert.algebraic_KernelIdeal_ReferenceIdeal := by
  intro m ρ m' ρ' hpre hagree
  refine ⟨_, _, Cert.KernelIdeal.Hand.run_value m ρ, ?_⟩
  refine (θ_run Cert.ReferenceIdeal.defs _ _).mono (fun r h c => ?_) (Cert.ReferenceIdeal.Hand.run_value m' ρ')
  obtain ⟨hw, hK, he, hs⟩ := Cert.Hand.pre_facts _ _ _ (hpre c)
  have hfr := Cert.KernelIdeal.Hand.framesOf_finite _ hw
  have hG : Cert.Spec.refOut (Cert.KernelIdeal.Hand.framesOf (m ((c.tc : Thread Cert.KernelIdeal.nD Cert.KernelIdeal.τ).loc Cert.KernelIdeal.main_arg0)))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.Spec.kerOut (Cert.KernelIdeal.Hand.framesOf (m ((c.tc : Thread Cert.KernelIdeal.nD Cert.KernelIdeal.τ).loc Cert.KernelIdeal.main_arg0)))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) :=
    funext fun b => funext fun f => funext fun t => (Cert.Spec.kerOut_eq_refOut _ _ _ hfr hK he hs b f t).symm
  obtain ⟨h30, h32, hargs⟩ := h c
  rw [(hagree c).1, (hagree c).2.1, (hagree c).2.2] at h30 h32
  exact ⟨h30.trans (congrArg Cert.Spec.resLo hG), h32.trans (congrArg Cert.Spec.resHi hG), hargs⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
